-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v9_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000x128 : Shape := ⟨2, ![640000, 128]⟩
abbrev S2x640000 : Shape := ⟨2, ![2, 640000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S_ : Shape := ⟨0, ![]⟩
abbrev S1x640000 : Shape := ⟨2, ![1, 640000]⟩
abbrev S640000 : Shape := ⟨1, ![640000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part6 {F : FTy → Type} [FloatOps F] (main_arg4 : IVec S2x640000 32) (main_v98 : IVec S_ 1) (main_v102 : IVec S640000 1) : IVec S_ 1 :=
  let main_c_39 : IVec S_ 1 := constantI S_ 1 1#1
  let main_v103 : IVec S_ 1 := (fun x v => Host.reduce IntOp.andi x v reducesTo_S640000_S_d0 h_S_) main_v102 main_c_39
  let main_v104 : IVec S_ 1 := andi main_v98 main_v103
  let main_v105 : IVec S1x640000 32 := (extractStridedSlice S1x640000 ![0, 0] · slices_S2x640000_S1x640000_0_0) main_arg4
  let main_v106 : IVec S640000 32 := shapeCast S640000 main_v105 shapeCasts_S1x640000_S640000
  let main_c_40 : IVec S_ 32 := constantI S_ 32 100000#32
  let main_v107 : IVec S640000 32 := broadcastInDim S640000 ![] bcast_S_S640000 main_c_40
  let main_v108 : IVec S640000 1 := cmpi .slt main_v106 main_v107
  let main_c_41 : IVec S_ 1 := constantI S_ 1 1#1
  let main_v109 : IVec S_ 1 := (fun x v => Host.reduce IntOp.andi x v reducesTo_S640000_S_d0 h_S_) main_v108 main_c_41
  let main_v110 : IVec S_ 1 := andi main_v104 main_v109
  main_v110

def fn_part5 {F : FTy → Type} [FloatOps F] (main_arg4 : IVec S2x640000 32) (main_arg19 : FVec F S256x128 .f32) (main_arg20 : FVec F S128 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x128 .f32 := Host.absf main_arg19
  let main_cst_34 : FVec F S_ .f32 := constant S_ .f32 0x7F800000#32
  let main_v90 : FVec F S256x128 .f32 := broadcastInDim S256x128 ![] bcast_S_S256x128 main_cst_34
  let main_v91 : IVec S256x128 1 := cmpf .olt main_v89 main_v90
  let main_c_35 : IVec S_ 1 := constantI S_ 1 1#1
  let main_v92 : IVec S_ 1 := (fun x v => Host.reduce IntOp.andi x v reducesTo_S256x128_S_d0_1 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : IVec S1x640000 32 := (extractStridedSlice S1x640000 ![0, 0] · slices_S2x640000_S1x640000_0_0) main_arg4
  let main_v100 : IVec S640000 32 := shapeCast S640000 main_v99 shapeCasts_S1x640000_S640000
  let main_c_38 : IVec S_ 32 := constantI S_ 32 4294867296#32
  let main_v101 : IVec S640000 32 := broadcastInDim S640000 ![] bcast_S_S640000 main_c_38
  let main_v102 : IVec S640000 1 := cmpi .sge main_v100 main_v101
  fn_part6 (F := F) main_arg4 main_v98 main_v102

def fn_part4 {F : FTy → Type} [FloatOps F] (main_arg4 : IVec S2x640000 32) (main_arg15 : FVec F S128x128 .f32) (main_arg16 : FVec F S128 .f32) (main_arg17 : FVec F S128x256 .f32) (main_arg18 : FVec F S256 .f32) (main_arg19 : FVec F S256x128 .f32) (main_arg20 : FVec F S128 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x256 .f32 := Host.absf main_arg17
  let main_cst_30 : FVec F S_ .f32 := constant S_ .f32 0x7F800000#32
  let main_v80 : FVec F S128x256 .f32 := broadcastInDim S128x256 ![] bcast_S_S128x256 main_cst_30
  let main_v81 : IVec S128x256 1 := cmpf .olt main_v79 main_v80
  let main_c_31 : IVec S_ 1 := constantI S_ 1 1#1
  let main_v82 : IVec S_ 1 := (fun x v => Host.reduce IntOp.andi x v reducesTo_S128x256_S_d0_1 h_S_) main_v81 main_c_31
  let main_v83 : IVec S_ 1 := andi main_v78 main_v82
  let main_v84 : FVec F S256 .f32 := Host.absf main_arg18
  let main_cst_32 : FVec F S_ .f32 := constant S_ .f32 0x7F800000#32
  fn_part5 (F := F) main_arg4 main_arg19 main_arg20 main_v83 main_v84 main_cst_32

def fn_part3 {F : FTy → Type} [FloatOps F] (main_arg4 : IVec S2x640000 32) (main_arg12 : FVec F S128 .f32) (main_arg13 : FVec F S128x128 .f32) (main_arg14 : FVec F S128 .f32) (main_arg15 : FVec F S128x128 .f32) (main_arg16 : FVec F S128 .f32) (main_arg17 : FVec F S128x256 .f32) (main_arg18 : FVec F S256 .f32) (main_arg19 : FVec F S256x128 .f32) (main_arg20 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg4 main_arg15 main_arg16 main_arg17 main_arg18 main_arg19 main_arg20 main_v63 main_v67

def fn_part2 {F : FTy → Type} [FloatOps F] (main_arg4 : IVec S2x640000 32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x256 .f32) (main_arg18 : FVec F S256 .f32) (main_arg19 : FVec F S256x128 .f32) (main_arg20 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg4 main_arg12 main_arg13 main_arg14 main_arg15 main_arg16 main_arg17 main_arg18 main_arg19 main_arg20 main_v48 main_v49 main_v50

def fn_part1 {F : FTy → Type} [FloatOps F] (main_arg4 : IVec S2x640000 32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x256 .f32) (main_arg18 : FVec F S256 .f32) (main_arg19 : FVec F S256x128 .f32) (main_arg20 : FVec F S128 .f32) (main_v13 : IVec S_ 1) (main_v16 : IVec S640000x128 1) : IVec S_ 1 :=
  let main_c_5 : IVec S_ 1 := constantI S_ 1 1#1
  let main_v17 : IVec S_ 1 := (fun x v => Host.reduce IntOp.andi x v reducesTo_S640000x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg4 main_arg8 main_arg9 main_arg10 main_arg11 main_arg12 main_arg13 main_arg14 main_arg15 main_arg16 main_arg17 main_arg18 main_arg19 main_arg20 main_v33

def fn {F : FTy → Type} [FloatOps F] (main_arg0 : FVec F S100000x128 .f32) (main_arg1 : FVec F S100000x128 .f32) (main_arg2 : FVec F S640000x128 .f32) (main_arg3 : FVec F S640000x128 .f32) (main_arg4 : IVec S2x640000 32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x256 .f32) (main_arg18 : FVec F S256 .f32) (main_arg19 : FVec F S256x128 .f32) (main_arg20 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S640000x128 .f32 := Host.absf main_arg2
  let main_cst_2 : FVec F S_ .f32 := constant S_ .f32 0x7F800000#32
  let main_v10 : FVec F S640000x128 .f32 := broadcastInDim S640000x128 ![] bcast_S_S640000x128 main_cst_2
  let main_v11 : IVec S640000x128 1 := cmpf .olt main_v9 main_v10
  let main_c_3 : IVec S_ 1 := constantI S_ 1 1#1
  let main_v12 : IVec S_ 1 := (fun x v => Host.reduce IntOp.andi x v reducesTo_S640000x128_S_d0_1 h_S_) main_v11 main_c_3
  let main_v13 : IVec S_ 1 := andi main_v8 main_v12
  let main_v14 : FVec F S640000x128 .f32 := Host.absf main_arg3
  let main_cst_4 : FVec F S_ .f32 := constant S_ .f32 0x7F800000#32
  let main_v15 : FVec F S640000x128 .f32 := broadcastInDim S640000x128 ![] bcast_S_S640000x128 main_cst_4
  let main_v16 : IVec S640000x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S100000x128 : Shape := ⟨2, ![100000, 128]⟩
abbrev S640000x128 : Shape := ⟨2, ![640000, 128]⟩
abbrev S2x640000 : Shape := ⟨2, ![2, 640000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S1x128 : Shape := ⟨2, ![1, 128]⟩
abbrev S2000x128 : Shape := ⟨2, ![2000, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S4000x128 : Shape := ⟨2, ![4000, 128]⟩
abbrev S1x256 : Shape := ⟨2, ![1, 256]⟩
abbrev S2000x256 : Shape := ⟨2, ![2000, 256]⟩

abbrev nBuf : Space → Nat
  | .hbm => 65
  | .vmem => 44
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S640000x128, .f32⟩
  | .hbm, ⟨3, _⟩ => ⟨S640000x128, .f32⟩
  | .hbm, ⟨4, _⟩ => ⟨S2x640000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x256, .f32⟩
  | .hbm, ⟨18, _⟩ => ⟨S256, .f32⟩
  | .hbm, ⟨19, _⟩ => ⟨S256x128, .f32⟩
  | .hbm, ⟨20, _⟩ => ⟨S128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S1x640000, .i32⟩
  | .hbm, ⟨27, _⟩ => ⟨S640000, .i32⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S1, .i32⟩
  | .hbm, ⟨37, _⟩ => ⟨S_, .i32⟩
  | .hbm, ⟨38, _⟩ => ⟨S640000x1, .i32⟩
  | .hbm, ⟨39, _⟩ => ⟨S640000x1, .i1⟩
  | .hbm, ⟨40, _⟩ => ⟨S1x1, .i32⟩
  | .hbm, ⟨41, _⟩ => ⟨S640000x1, .i32⟩
  | .hbm, ⟨42, _⟩ => ⟨S640000x1, .i1⟩
  | .hbm, ⟨43, _⟩ => ⟨S640000x1, .i1⟩
  | .hbm, ⟨44, _⟩ => ⟨S_, .i1⟩
  | .hbm, ⟨45, _⟩ => ⟨S640000, .i1⟩
  | .hbm, ⟨46, _⟩ => ⟨S640000x128, .f32⟩
  | .hbm, ⟨47, _⟩ => ⟨S640000x128, .i1⟩
  | .hbm, ⟨48, _⟩ => ⟨S_, .f32⟩
  | .hbm, ⟨49, _⟩ => ⟨S640000x128, .f32⟩
  | .hbm, ⟨50, _⟩ => ⟨S640000x128, .f32⟩
  | .hbm, ⟨51, _⟩ => ⟨S1x128, .f32⟩
  | .hbm, ⟨52, _⟩ => ⟨S1x128, .f32⟩
  | .hbm, ⟨53, _⟩ => ⟨S640000x128, .f32⟩
  | .hbm, ⟨54, _⟩ => ⟨S640000x128, .f32⟩
  | .hbm, ⟨55, _⟩ => ⟨S1x640000, .i32⟩
  | .hbm, ⟨56, _⟩ => ⟨S640000, .i32⟩
  | .hbm, ⟨57, _⟩ => ⟨S_, .f32⟩
  | .hbm, ⟨58, _⟩ => ⟨S100000x128, .f32⟩
  | .hbm, ⟨59, _⟩ => ⟨S640000x1, .i32⟩
  | .hbm, ⟨60, _⟩ => ⟨S100000x128, .f32⟩
  | .hbm, ⟨61, _⟩ => ⟨S1x128, .f32⟩
  | .hbm, ⟨62, _⟩ => ⟨S1x256, .f32⟩
  | .hbm, ⟨63, _⟩ => ⟨S1x128, .f32⟩
  | .hbm, ⟨64, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S128x128, .f32⟩
  | .local _ .vmem, ⟨37, _⟩ => ⟨S1x128, .f32⟩
  | .local _ .vmem, ⟨38, _⟩ => ⟨S128x256, .f32⟩
  | .local _ .vmem, ⟨39, _⟩ => ⟨S1x256, .f32⟩
  | .local _ .vmem, ⟨40, _⟩ => ⟨S256x128, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3_0 : Ref sig .tc := ⟨.hbm, 24, rfl⟩
abbrev main_v3_1 : Ref sig .tc := ⟨.hbm, 25, rfl⟩
abbrev main_v4 : Ref sig .tc := ⟨.hbm, 26, rfl⟩
abbrev main_v5 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9_0 : Ref sig .tc := ⟨.hbm, 53, rfl⟩
abbrev main_v9_1 : Ref sig .tc := ⟨.hbm, 54, rfl⟩
abbrev main_v10 : Ref sig .tc := ⟨.hbm, 55, rfl⟩
abbrev main_v11 : Ref sig .tc := ⟨.hbm, 56, rfl⟩
abbrev main_cst : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg9_0 : Ref sig .tc := ⟨.vmem, 41, rfl⟩
abbrev cc2_stg10_0 : Ref sig .tc := ⟨.vmem, 42, rfl⟩
abbrev cc2_stg10_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem9_0 : DmaSem sig := 41
abbrev cc2_sem10_0 : DmaSem sig := 42
abbrev cc2_sem10_1 : DmaSem sig := 43

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  inb_S4000x128_S4000x128_0_0 : ∀ a, (![0, 0] : Fin 2 → Nat) a + S4000x128.size a ≤ S4000x128.size a
  h_S4000x128 : 0 < S4000x128.numel
  broadcasts_S1x128_S4000x128 : S1x128.Broadcasts S4000x128
  shapeCasts_S4000x128_S4000x128 : S4000x128.ShapeCasts S4000x128
  slices_S2x640000_S1x640000_1_0 : S2x640000.Slices ![1, 0] S1x640000
  bcast_S_S100000x128 : S_.BroadcastsInDim S100000x128 (![] : Fin 0 → Fin S100000x128.rank)
  shapeCasts_S256_S1x256 : S256.ShapeCasts S1x256
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  dot_S2000x128_S128x128_S2000x128_1_0_0_1_n_n_wf : DotDims.WF S2000x128 S128x128 S2000x128 [1] [0] [0] [1] [] []
  gather_S100000x128_S640000x1_S640000x128_1_0_n_n_0_1_1128_wf : GatherDims.WF S100000x128 S640000x1 S640000x128 [1] [0] [] [0] [] 1 ![1, 128]
  dot_S4000x128_S128x128_S4000x128_1_0_0_1_n_n_wf : DotDims.WF S4000x128 S128x128 S4000x128 [1] [0] [0] [1] [] []
  scatter_S100000x128_S640000x1_S640000x128_1_0_0_1_wf : ScatterDims.WF S100000x128 S640000x1 S640000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S100000x128.size a
  hwx0_8 : ∀ i : grid0.Coords, EltTy.bits .f32 = 32 ∨ (Rect.block (s := S100000x128) S2000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S100000x128.size a
  hwx0_9 : ∀ i : grid0.Coords, EltTy.bits .f32 = 32 ∨ (Rect.block (s := S100000x128) S2000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S640000x128.size a
  hwx1_0 : ∀ i : grid1.Coords, EltTy.bits .f32 = 32 ∨ (Rect.block (s := S640000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S640000x128.size a
  hwx1_1 : ∀ i : grid1.Coords, EltTy.bits .f32 = 32 ∨ (Rect.block (s := S640000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S640000x128.size a
  hwx1_2 : ∀ i : grid1.Coords, EltTy.bits .f32 = 32 ∨ (Rect.block (s := S640000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S640000x128.size a
  hwx1_7 : ∀ i : grid1.Coords, EltTy.bits .f32 = 32 ∨ (Rect.block (s := S640000x128) S4000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x128.size a ≤ S640000x128.size a
  hwx1_8 : ∀ i : grid1.Coords, EltTy.bits .f32 = 32 ∨ (Rect.block (s := S640000x128) S4000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x256.size a ≤ S128x256.size a
  hwx2_6 : ∀ i : grid2.Coords, EltTy.bits .f32 = 32 ∨ (Rect.block (s := S128x256) S128x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x128.size a ≤ S256x128.size a
  hwx2_8 : ∀ i : grid2.Coords, EltTy.bits .f32 = 32 ∨ (Rect.block (s := S256x128) S256x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x128.size a ≤ S100000x128.size a
  hwx2_10 : ∀ i : grid2.Coords, EltTy.bits .f32 = 32 ∨ (Rect.block (s := S100000x128) S2000x128.size (cc2_transform_10 i) (hinb2_10 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S2000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v6) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9_0) S4000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v9_1) S4000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v3_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3_1) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg0) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg17) S128x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v16) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg19) S256x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v17) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v18) S2000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S100000x128 : Shape := ⟨2, ![100000, 128]⟩
abbrev S640000x128 : Shape := ⟨2, ![640000, 128]⟩
abbrev S2x640000 : Shape := ⟨2, ![2, 640000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S1x128 : Shape := ⟨2, ![1, 128]⟩
abbrev S_ : Shape := ⟨0, ![]⟩
abbrev S1x640000 : Shape := ⟨2, ![1, 640000]⟩
abbrev S640000 : Shape := ⟨1, ![640000]⟩
abbrev S640000x1 : Shape := ⟨2, ![640000, 1]⟩
abbrev S100000x256 : Shape := ⟨2, ![100000, 256]⟩
abbrev S1x256 : Shape := ⟨2, ![1, 256]⟩

abbrev nBuf : Space → Nat
  | .hbm => 95
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S640000x128, .f32⟩
  | .hbm, ⟨3, _⟩ => ⟨S640000x128, .f32⟩
  | .hbm, ⟨4, _⟩ => ⟨S2x640000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x256, .f32⟩
  | .hbm, ⟨18, _⟩ => ⟨S256, .f32⟩
  | .hbm, ⟨19, _⟩ => ⟨S256x128, .f32⟩
  | .hbm, ⟨20, _⟩ => ⟨S128, .f32⟩
  | .hbm, ⟨21, _⟩ => ⟨S100000x128, .f32⟩
  | .hbm, ⟨22, _⟩ => ⟨S1x128, .f32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S1x640000, .i32⟩
  | .hbm, ⟨38, _⟩ => ⟨S640000, .i32⟩
  | .hbm, ⟨39, _⟩ => ⟨S_, .i32⟩
  | .hbm, ⟨40, _⟩ => ⟨S640000, .i32⟩
  | .hbm, ⟨41, _⟩ => ⟨S640000, .i1⟩
  | .hbm, ⟨42, _⟩ => ⟨S_, .i32⟩
  | .hbm, ⟨43, _⟩ => ⟨S640000, .i32⟩
  | .hbm, ⟨44, _⟩ => ⟨S640000, .i32⟩
  | .hbm, ⟨45, _⟩ => ⟨S640000, .i32⟩
  | .hbm, ⟨46, _⟩ => ⟨S640000x1, .i32⟩
  | .hbm, ⟨47, _⟩ => ⟨S640000x128, .f32⟩
  | .hbm, ⟨48, _⟩ => ⟨S640000x128, .f32⟩
  | .hbm, ⟨49, _⟩ => ⟨S640000x128, .f32⟩
  | .hbm, ⟨50, _⟩ => ⟨S1x128, .f32⟩
  | .hbm, ⟨51, _⟩ => ⟨S640000x128, .f32⟩
  | .hbm, ⟨52, _⟩ => ⟨S640000x128, .f32⟩
  | .hbm, ⟨53, _⟩ => ⟨S_, .f32⟩
  | .hbm, ⟨54, _⟩ => ⟨S640000x128, .f32⟩
  | .hbm, ⟨55, _⟩ => ⟨S640000x128, .f32⟩
  | .hbm, ⟨56, _⟩ => ⟨S640000x128, .f32⟩
  | .hbm, ⟨57, _⟩ => ⟨S640000x128, .f32⟩
  | .hbm, ⟨58, _⟩ => ⟨S1x128, .f32⟩
  | .hbm, ⟨59, _⟩ => ⟨S640000x128, .f32⟩
  | .hbm, ⟨60, _⟩ => ⟨S640000x128, .f32⟩
  | .hbm, ⟨61, _⟩ => ⟨S_, .f32⟩
  | .hbm, ⟨62, _⟩ => ⟨S640000x128, .f32⟩
  | .hbm, ⟨63, _⟩ => ⟨S640000x128, .f32⟩
  | .hbm, ⟨64, _⟩ => ⟨S640000x128, .f32⟩
  | .hbm, ⟨65, _⟩ => ⟨S_, .f32⟩
  | .hbm, ⟨66, _⟩ => ⟨S640000x128, .f32⟩
  | .hbm, ⟨67, _⟩ => ⟨S640000x128, .f32⟩
  | .hbm, ⟨68, _⟩ => ⟨S1x640000, .i32⟩
  | .hbm, ⟨69, _⟩ => ⟨S640000, .i32⟩
  | .hbm, ⟨70, _⟩ => ⟨S_, .f32⟩
  | .hbm, ⟨71, _⟩ => ⟨S100000x128, .f32⟩
  | .hbm, ⟨72, _⟩ => ⟨S640000x1, .i32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S100000x256, .f32⟩
  | .hbm, ⟨85, _⟩ => ⟨S1x256, .f32⟩
  | .hbm, ⟨86, _⟩ => ⟨S100000x256, .f32⟩
  | .hbm, ⟨87, _⟩ => ⟨S100000x256, .f32⟩
  | .hbm, ⟨88, _⟩ => ⟨S_, .f32⟩
  | .hbm, ⟨89, _⟩ => ⟨S100000x256, .f32⟩
  | .hbm, ⟨90, _⟩ => ⟨S100000x256, .f32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_call0_cst : Ref sig .tc := ⟨.hbm, 34, rfl⟩
abbrev main_call0_v0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_0 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call1_cst : Ref sig .tc := ⟨.hbm, 53, rfl⟩
abbrev main_call1_v0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_call2_cst : Ref sig .tc := ⟨.hbm, 61, rfl⟩
abbrev main_call2_v0 : Ref sig .tc := ⟨.hbm, 62, rfl⟩
abbrev main_v34 : Ref sig .tc := ⟨.hbm, 63, rfl⟩
abbrev main_v35 : Ref sig .tc := ⟨.hbm, 64, rfl⟩
abbrev main_call3_cst : Ref sig .tc := ⟨.hbm, 65, rfl⟩
abbrev main_call3_v0 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_call4_cst : Ref sig .tc := ⟨.hbm, 80, rfl⟩
abbrev main_call4_v0 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_call5_cst : Ref sig .tc := ⟨.hbm, 88, rfl⟩
abbrev main_call5_v0 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  bcast_S640000_S640000x1_0 : S640000.BroadcastsInDim S640000x1 (![0] : Fin 1 → Fin S640000x1.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  slices_S2x640000_S1x640000_1_0 : S2x640000.Slices ![1, 0] S1x640000
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  dot_S100000x128_S128x128_S100000x128_1_0_0_1_n_n_wf : DotDims.WF S100000x128 S128x128 S100000x128 [1] [0] [0] [1] [] []
  gather_S100000x128_S640000x1_S640000x128_1_0_n_n_0_1_1128_wf : GatherDims.WF S100000x128 S640000x1 S640000x128 [1] [0] [] [0] [] 1 ![1, 128]
  dot_S640000x128_S128x128_S640000x128_1_0_0_1_n_n_wf : DotDims.WF S640000x128 S128x128 S640000x128 [1] [0] [0] [1] [] []
  scatter_S100000x128_S640000x1_S640000x128_1_0_0_1_wf : ScatterDims.WF S100000x128 S640000x1 S640000x128 [1] [0] [0] 1
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.Spec.lean ====
/-
  The mathematics of the message-passing layer, stated once, index by index, on the extended reals.

  Rows are nodes (100000 of them) or edges (640000); every feature axis has 128 entries (256 in the hidden layer of the
  last block). A linear layer reads row `r` of its input against the whole weight: entry `(r, q)` of `A · W + b` is
  `∑ k, A (r, k) * W (k, q) + b (0, q)` (`affine`), the bias kept as a one-row array. `relu0 x = max x 0`, the zero spelt
  as the f32 word both programs print. The three blocks:
    node projections   h = relu0 ((x · Wq + bq) * (p · Wk + bk)),  v = p · Wv + bv;
    edge messages      e₁ = relu0 ((a + π) · We1 + be1),  e = relu0 ((e₁ + π) · We2 + be2),  msg = relu0 (src + e);
    node update        o = relu0 ((h + v + aggr) · Wh + bh) + x,  f = relu0 (o · Wf1 + bf1),  out = f · Wf2 + bf2.
  Nothing here mentions a program: both the kernel's regions and the reference's stages are shown to be these functions.
-/
import Idealize.ShloMosaic.PureOps.Ideal
import Idealize.ShloMosaic.Lib.ValueIdx

noncomputable section

namespace Cert.Spec

open Idealize.ShloMosaic Idealize.ShloMosaic.ValueIdx

/-- A rank-2 array of extended reals with `a` rows and `b` columns. -/
abbrev Arr (a b : Nat) : Type := (⟨2, ![a, b]⟩ : Shape).Idx → EReal
/-- A rank-1 array of extended reals with `b` entries. -/
abbrev Row (b : Nat) : Type := (⟨1, ![b]⟩ : Shape).Idx → EReal

/-- `max x 0`, the zero being the f32 word `0x00000000` both programs print. -/
def relu0 (x : EReal) : EReal := max x (Ideal.ofBits .f32 0x00000000#32)

/-- Entry `(r, q)` of `A · W + b`: row `r` of `A` against column `q` of `W`, plus the bias row's entry `q`. -/
def affine {n K M : Nat} (A : Arr n K) (W : Arr K M) (b : Arr 1 M) (r : Fin n) (q : Fin M) : EReal :=
  (∑ k : Fin K, A (ix2 r k) * W (ix2 k q)) + b (ix2 (0 : Fin 1) q)

/-- A rank-1 bias as the one-row array a kernel stages: entry `(0, q)` is entry `q`. -/
def row1 {M : Nat} (b : Row M) : Arr 1 M := fun i => b (ix1 (n := M) ⟨(i 1).val, (i 1).isLt⟩)

/-- The array whose entry at `(r, q)` is `f r q`. -/
def ofCoords {a b : Nat} (f : Fin a → Fin b → EReal) : Arr a b := fun i => f ⟨(i 0).val, (i 0).isLt⟩ ⟨(i 1).val, (i 1).isLt⟩

theorem ofCoords_ix2 {a b : Nat} (f : Fin a → Fin b → EReal) (r : Fin a) (q : Fin b) : ofCoords f (ix2 r q) = f r q := rfl

theorem row1_ix2 {M : Nat} (b : Row M) (z : Fin 1) (q : Fin M) : row1 b (ix2 z q) = b (ix1 q) := rfl

/-! ## Node projections -/

/-- `h = relu0 ((x · Wq + bq) * (p · Wk + bk))`. -/
def hArr (X P : Arr 100000 128) (Wq : Arr 128 128) (bq : Arr 1 128) (Wk : Arr 128 128) (bk : Arr 1 128) : Arr 100000 128 :=
  ofCoords fun r q => relu0 (affine X Wq bq r q * affine P Wk bk r q)

/-- `v = p · Wv + bv`. -/
def vArr (P : Arr 100000 128) (Wv : Arr 128 128) (bv : Arr 1 128) : Arr 100000 128 :=
  ofCoords (affine P Wv bv)

/-! ## Edge messages -/

/-- `e₁ = relu0 ((a + π) · We1 + be1)`. -/
def e1Arr (EA PE : Arr 640000 128) (We1 : Arr 128 128) (be1 : Arr 1 128) : Arr 640000 128 :=
  ofCoords fun r q => relu0 (affine (fun i => EA i + PE i) We1 be1 r q)

/-- `e = relu0 ((e₁ + π) · We2 + be2)`, the updated edge features (the program's second result). -/
def eArr (EA PE : Arr 640000 128) (We1 : Arr 128 128) (be1 : Arr 1 128) (We2 : Arr 128 128) (be2 : Arr 1 128) : Arr 640000 128 :=
  ofCoords fun r q => relu0 (affine (fun i => e1Arr EA PE We1 be1 i + PE i) We2 be2 r q)

/-- `msg = relu0 (src + e)`, `src` the source node's row of `h` per edge. -/
def msgArr (SRC EA PE : Arr 640000 128) (We1 : Arr 128 128) (be1 : Arr 1 128) (We2 : Arr 128 128) (be2 : Arr 1 128) : Arr 640000 128 :=
  fun i => relu0 (SRC i + eArr EA PE We1 be1 We2 be2 i)

/-! ## Node update -/

/-- `o = relu0 ((h + v + aggr) · Wh + bh) + x`. -/
def hoArr (H V AG X : Arr 100000 128) (Wh : Arr 128 128) (bh : Arr 1 128) : Arr 100000 128 :=
  ofCoords fun r q => relu0 (affine (fun i => H i + V i + AG i) Wh bh r q) + X (ix2 r q)

/-- `f = relu0 (o · Wf1 + bf1)`, 256 wide. -/
def hfArr (H V AG X : Arr 100000 128) (Wh : Arr 128 128) (bh : Arr 1 128) (Wf1 : Arr 128 256) (bf1 : Arr 1 256) : Arr 100000 256 :=
  ofCoords fun r q => relu0 (affine (hoArr H V AG X Wh bh) Wf1 bf1 r q)

/-- `out = f · Wf2 + bf2` (the program's first result). -/
def outArr (H V AG X : Arr 100000 128) (Wh : Arr 128 128) (bh : Arr 1 128) (Wf1 : Arr 128 256) (bf1 : Arr 1 256)
    (Wf2 : Arr 256 128) (bf2 : Arr 1 128) : Arr 100000 128 :=
  ofCoords (affine (hfArr H V AG X Wh bh Wf1 bf1) Wf2 bf2)

end Cert.Spec

end
-- ==== Proof.IdxBits.lean ====
/-
  Words, with no program in sight: Python's index wrap (`e + N` for a negative `e`) sends every index of `[-N, N)` into
  `[0, N - 1]`, here at `N = 100000` on 32-bit signed words.
-/
import Idealize.ShloMosaic.Lib.ReduceAll
import Idealize.ShloMosaic.Lib.ValueIdx
import Idealize.ShloMosaic.PureOps.Reduce

noncomputable section

namespace Cert.IdxBits

open Idealize.ShloMosaic

/-- Python's index wrap on a word `e` with `-100000 ≤ e < 100000`: `e + 100000` when `e < 0`, else `e`, lands in `[0, 99999]`. -/
theorem wrap_inb (e : BitVec 32) (h1 : IntOp.cmpi .sge e 4294867296#32 = 1#1) (h2 : IntOp.cmpi .slt e 100000#32 = 1#1) :
    IntOp.cmpi .sge (Scalar.select (IntOp.cmpi .slt e 0#32) (IntOp.addi e 100000#32) e) 0#32 = 1#1
    ∧ IntOp.cmpi .sle (Scalar.select (IntOp.cmpi .slt e 0#32) (IntOp.addi e 100000#32) e) 99999#32 = 1#1 := by
  rw [IntOp.cmpi_sge] at h1
  rw [IntOp.cmpi_slt] at h2
  have c1 : (4294867296#32 : BitVec 32).toInt = -100000 := by decide
  have c2 : (100000#32 : BitVec 32).toInt = 100000 := by decide
  have c3 : (0#32 : BitVec 32).toInt = 0 := by decide
  have c4 : (99999#32 : BitVec 32).toInt = 99999 := by decide
  rw [c1] at h1
  rw [c2] at h2
  by_cases hneg : e.toInt < 0
  · have hc : IntOp.cmpi .slt e 0#32 = 1#1 := IntOp.cmpi_slt.2 (by rw [c3]; exact hneg)
    rw [hc]
    have hs : Scalar.select (1#1 : BitVec 1) (IntOp.addi e 100000#32) e = e + 100000#32 := if_pos rfl
    rw [hs, IntOp.cmpi_sge, IntOp.cmpi_sle, c3, c4, BitVec.toInt_add, c2]
    have hb : (e.toInt + 100000).bmod (2 ^ 32) = e.toInt + 100000 := by
      apply Int.bmod_eq_of_le <;> omega
    rw [hb]
    omega
  · have hc : IntOp.cmpi .slt e 0#32 = 0#1 := by
      have : ¬ IntOp.cmpi .slt e 0#32 = 1#1 := fun h => hneg (by rw [← c3]; exact IntOp.cmpi_slt.1 h)
      exact ValueIdx.eq_zero_of_ne_one this
    rw [hc]
    have hs : Scalar.select (0#1 : BitVec 1) (IntOp.addi e 100000#32) e = e := if_neg (by decide)
    rw [hs, IntOp.cmpi_sge, IntOp.cmpi_sle, c3, c4]
    omega

end Cert.IdxBits

end
-- ==== Proof.LibHostBits.lean ====
/-
  Two small facts about host programs, at any sizes.

  (1) A reduce by `and` from the constant 1 over an array whose every word is 1 is 1 at every index of the result: the
  converse of the library's "a reduce by `and` that is 1 met only 1s". It is what shows a mask computed by comparisons and
  joined along an axis (the in-range mask of a fill-mode `take`, a `where` guarding an index range) to be all ones once
  every compared word is known to pass.

  (2) In the operations of a module-local function a value is moved to its buffer's own type when it is written and back to
  the value's type when it is read. The two moves cancel, `ofBuf (toBuf v) = v`, for any typed reference: rewriting with
  this one equation clears the nested moves that the composed term of a called function's result carries.
-/
import Idealize.ShloMosaic.Lib.ReduceAll
import Idealize.ShloMosaic.Lib.StableHlo
import Idealize.ShloMosaic.PureOps.Reduce

noncomputable section

namespace Cert.LibHostBits

open Idealize.ShloMosaic

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- A reduce by `and` from the constant 1 over an array whose every word is 1 is 1 at every index. -/
theorem reduce_andi_of_forall {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ fun n _ => hx n

/-- Contents moved to a buffer's own type and back are the contents. -/
theorem ofBuf_toBuf {sig : RefSig} {Val : EltTy → Type} {T : BufTy} (x : StableHlo.TRef sig T) (v : T.Contents Val) :
    x.ofBuf (x.toBuf v) = v := by
  obtain ⟨r, h, _, _⟩ := x
  subst h
  rfl

end Cert.LibHostBits

end
-- ==== Proof.Take.lean ====
/-
  The kernel program's row gather `take h idx` (fill mode): Python's wrap of negative indices, a gather at the wrapped
  index, and a fill of rows whose wrapped index leaves `[0, 99999]` with the word `0x7FC00000`. When every source index
  lies in `[-100000, 100000)` the wrapped index is in range on every row, the fill mask is all ones, and the result is the
  plain gather at the wrapped index.
-/
import proofs.«427256_j19507741458639_1_alg».proof.KernelIdeal
import proofs.«427256_j19507741458639_1_alg».proof.Proof.IdxBits
import proofs.«427256_j19507741458639_1_alg».proof.Proof.LibHostBits
import Idealize.ShloMosaic.Lib.ValueIdx

set_option maxRecDepth 16384

noncomputable section

namespace Cert.KernelIdeal.Take

open Cert.KernelIdeal Idealize.ShloMosaic Idealize.ShloMosaic.ValueIdx

variable [Cert.KernelIdeal.Facts]
open Cert.KernelIdeal.Facts₀ Cert.KernelIdeal.Facts

/-- Row 0 of the edge list as 640000 source indices: the slice `[0:1, :]` reshaped to rank 1. -/
def idxE (a4 : IVec S2x640000 32) : IVec S640000 32 :=
  shapeCast S640000 (extractStridedSlice S1x640000 ![0, 0] a4 slices_S2x640000_S1x640000_0_0) shapeCasts_S1x640000_S640000

/-- The wrapped source index as a column: `e + 100000` where `e < 0`, else `e`. -/
def idxW (a4 : IVec S2x640000 32) : IVec S640000x1 32 :=
  broadcastInDim S640000x1 ![0] bcast_S640000_S640000x1_0
    (select (cmpi .slt (idxE a4) (broadcastInDim S640000 ![] bcast_S_S640000 (constantI S_ 32 0#32)))
      (addi (idxE a4) (broadcastInDim S640000 ![] bcast_S_S640000 (constantI S_ 32 100000#32))) (idxE a4))

/-- Per entry of the wrapped-index column: `0 ≤ w` and `w ≤ 99999`, as one bit. -/
def bothCol (a4 : IVec S2x640000 32) : IVec S640000x1 1 :=
  andi (cmpi .sge (idxW a4) (broadcastInDim S640000x1 ![] bcast_S_S640000x1 (constantI S_ 32 0#32)))
    (cmpi .sle (idxW a4) (broadcastInDim S640000x1 ![0, 1] bcast_S1x1_S640000x1_0_1
      (broadcastInDim S1x1 ![1] bcast_S1_S1x1_1 (constantI S1 32 99999#32))))

/-- Per row: that bit joined over the column's one entry. -/
def rowOk (a4 : IVec S2x640000 32) : IVec S640000 1 :=
  Host.reduce IntOp.andi (bothCol a4) (constantI S_ 1 1#1) reducesTo_S640000x1_S640000_d1 h_S_

/-- The fill mask: the row's bit spread over the 128 columns. -/
def inb (a4 : IVec S2x640000 32) : IVec S640000x128 1 :=
  broadcastInDim S640000x128 ![0] bcast_S640000_S640000x128_0 (rowOk a4)

/-- `take h idx` in fill mode: the gathered rows where the mask is one, the fill word elsewhere. -/
def take (h : FVec Ideal S100000x128 .f32) (a4 : IVec S2x640000 32) : FVec Ideal S640000x128 .f32 :=
  select (inb a4) (Host.gather gather_S100000x128_S640000x1_S640000x128_1_0_n_n_0_1_1128 h (idxW a4))
    (broadcastInDim S640000x128 ![] bcast_S_S640000x128 (constant (F := Ideal) S_ .f32 0x7FC00000#32))

/-! ### Reading the columns at an entry -/

theorem zeroCol_apply (i : S640000x1.Idx) : broadcastInDim S640000x1 ![] bcast_S_S640000x1 (constantI S_ 32 0#32) i = 0#32 := rfl
theorem lastCol_apply (i : S640000x1.Idx) :
    broadcastInDim S640000x1 ![0, 1] bcast_S1x1_S640000x1_0_1 (broadcastInDim S1x1 ![1] bcast_S1_S1x1_1 (constantI S1 32 99999#32)) i = 99999#32 := rfl
theorem zeroVec_apply (k : S640000.Idx) : broadcastInDim S640000 ![] bcast_S_S640000 (constantI S_ 32 0#32) k = 0#32 := rfl
theorem sizeVec_apply (k : S640000.Idx) : broadcastInDim S640000 ![] bcast_S_S640000 (constantI S_ 32 100000#32) k = 100000#32 := rfl

/-- The row of a column's entry. -/
def rowOf (i : S640000x1.Idx) : S640000.Idx := ix1 (n := 640000) ⟨(i 0).val, (i 0).isLt⟩

/-- A rank-1 array spread as a column reads, at an entry, the array at the entry's row. -/
theorem col_apply {α : Type} (x : S640000.Idx → α) (i : S640000x1.Idx) :
    broadcastInDim S640000x1 ![0] bcast_S640000_S640000x1_0 x i = x (rowOf i) := by
  unfold broadcastInDim
  refine congrArg x (funext fun a => ?_)
  have ha : a = 0 := Subsingleton.elim _ _
  subst ha
  apply Fin.ext
  split
  · next h1 => exact absurd h1 (by decide)
  · rfl

/-- A rank-1 array spread over 128 columns reads, at any entry, the array at some row. -/
theorem wide_apply {α : Type} (x : S640000.Idx → α) (j : S640000x128.Idx) :
    ∃ k, broadcastInDim S640000x128 ![0] bcast_S640000_S640000x128_0 x j = x k := ⟨_, rfl⟩

/-- The wrapped index at an entry: Python's wrap of the source index of the entry's row. -/
theorem idxW_apply (a4 : IVec S2x640000 32) (i : S640000x1.Idx) :
    idxW a4 i = Scalar.select (IntOp.cmpi .slt (idxE a4 (rowOf i)) 0#32) (IntOp.addi (idxE a4 (rowOf i)) 100000#32) (idxE a4 (rowOf i)) := by
  unfold idxW
  rw [col_apply]
  rfl

/-- One entry of the wrapped-index column passes both comparisons when its source index is in `[-100000, 100000)`. -/
theorem both_one (a4 : IVec S2x640000 32)
    (hr : ∀ k : S640000.Idx, IntOp.cmpi .sge (idxE a4 k) 4294867296#32 = 1#1 ∧ IntOp.cmpi .slt (idxE a4 k) 100000#32 = 1#1)
    (i : S640000x1.Idx) : bothCol a4 i = 1#1 := by
  have h := Cert.IdxBits.wrap_inb (idxE a4 (rowOf i)) (hr _).1 (hr _).2
  rw [← idxW_apply a4 i] at h
  unfold bothCol
  exact IntOp.andi_eq_one.2 h

/-- A column of ones joins, row by row, to one. -/
theorem rows_one (x : IVec S640000x1 1) (hx : ∀ i, x i = 1#1) (k : S640000.Idx) :
    Host.reduce IntOp.andi x (constantI S_ 1 1#1) reducesTo_S640000x1_S640000_d1 h_S_ k = 1#1 :=
  Cert.LibHostBits.reduce_andi_of_forall x (constantI S_ 1 1#1) reducesTo_S640000x1_S640000_d1 h_S_ rfl hx k

/-- With every source index in `[-100000, 100000)` every row's bit is one. -/
theorem rowOk_one (a4 : IVec S2x640000 32)
    (hr : ∀ k : S640000.Idx, IntOp.cmpi .sge (idxE a4 k) 4294867296#32 = 1#1 ∧ IntOp.cmpi .slt (idxE a4 k) 100000#32 = 1#1)
    (k : S640000.Idx) : rowOk a4 k = 1#1 := by
  have hb : ∀ i, bothCol a4 i = 1#1 := both_one a4 hr
  unfold rowOk
  exact rows_one (bothCol a4) hb k

/-- So the fill mask is one everywhere. -/
theorem inb_one (a4 : IVec S2x640000 32)
    (hr : ∀ k : S640000.Idx, IntOp.cmpi .sge (idxE a4 k) 4294867296#32 = 1#1 ∧ IntOp.cmpi .slt (idxE a4 k) 100000#32 = 1#1)
    (j : S640000x128.Idx) : inb a4 j = 1#1 := by
  obtain ⟨k, hk⟩ := wide_apply (rowOk a4) j
  unfold inb
  rw [hk]
  exact rowOk_one a4 hr k

/-- So the fill never happens: `take` is the gather at the wrapped index. -/
theorem take_eq_gather (h : FVec Ideal S100000x128 .f32) (a4 : IVec S2x640000 32)
    (hr : ∀ k : S640000.Idx, IntOp.cmpi .sge (idxE a4 k) 4294867296#32 = 1#1 ∧ IntOp.cmpi .slt (idxE a4 k) 100000#32 = 1#1) :
    take h a4 = Host.gather gather_S100000x128_S640000x1_S640000x128_1_0_n_n_0_1_1128 h (idxW a4) := by
  funext j
  have hs : take h a4 j = Scalar.select (inb a4 j)
      (Host.gather gather_S100000x128_S640000x1_S640000x128_1_0_n_n_0_1_1128 h (idxW a4) j)
      (broadcastInDim S640000x128 ![] bcast_S_S640000x128 (constant (F := Ideal) S_ .f32 0x7FC00000#32) j) := rfl
  rw [hs, inb_one a4 hr j]
  exact if_pos rfl

end Cert.KernelIdeal.Take

end
-- ==== Proof.Region0.lean ====
import proofs.«427256_j19507741458639_1_alg».proof.Proof.Gen.KernelIdeal.Frame
import proofs.«427256_j19507741458639_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! # The node-projection region: what its two result arrays hold

The region walks the 100000 node rows in 50 consecutive blocks of 2000. At each block it reads the rows of `x` and `p`
and the whole of three weights and their one-row biases, and stores
  `h = relu0 ((x · Wq + bq) * (p · Wk + bk))`  and  `v = p · Wv + bv`
for those rows. Every operation is row-wise, so row `r` of a result needs only row `r` of `x` and `p`. The proof reads
the body's results entry by entry on a block, identifies the block's rows with rows of the arrays, and lets the 50
blocks tile the arrays. -/

/-! ## The product of a row block with a weight, entry by entry

The contraction of the matrix unit pairs axis 1 of the left operand with axis 0 of the right one; the other two
axes are the result's. The four lemmas below read the left and right operand's index off a result index and a
contraction index, axis by axis. -/

theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry `(p, q)` of the product accumulated from zero is `∑ k, l (p, k) * r (k, q)`: the sum over the contraction
    index, re-indexed by its single coordinate. -/
theorem mm_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The body's two results at an entry of a row block

Over a row block `x` of 2000 rows, a whole weight `w` and a one-row bias `b`, the body forms `x · w + b`: the
narrowing of the operands is the identity on extended reals, the product is accumulated from zero, and the bias row is
repeated down the 2000 rows. -/

/-- Entry `(p, q)` of the second result's block: `∑ k, x (p, k) * w (k, q) + b (0, q)`. -/
theorem pay_v (x : Vec Ideal S2000x128 .f32) (w : Vec Ideal S128x128 .f32) (b : Vec Ideal S1x128 .f32)
    (p : Fin 2000) (q : Fin 128) :
    k0_pay2 (F := Ideal) x w b (ix2 p q) = Cert.Spec.affine x w b p q := by
  unfold k0_pay2 k0_pay1 Cert.Spec.affine
  refine congrArg₂ (· + ·) ?_ ?_
  · exact mm_apply (truncf .bf16 x bitsLt_bf16_f32) (truncf .bf16 w bitsLt_bf16_f32) p q
  · rw [shapeCast_self]
    exact broadcastTo_1b_ab_apply b broadcasts_S1x128_S2000x128 p q

/-- Entry `(p, q)` of the first result's block: the product of the two affine maps, cut below at zero. -/
theorem pay_h (x0 x2 : Vec Ideal S2000x128 .f32) (w4 w6 : Vec Ideal S128x128 .f32) (b11 b16 : Vec Ideal S1x128 .f32)
    (p : Fin 2000) (q : Fin 128) :
    k0_pay3 (F := Ideal) x0 x2 w4 w6 b11 b16 (ix2 p q)
      = Cert.Spec.relu0 (Cert.Spec.affine x0 w4 b11 p q * Cert.Spec.affine x2 w6 b16 p q) := by
  unfold k0_pay3 k0_pay1 Cert.Spec.relu0 Cert.Spec.affine
  refine congrArg₂ max ?_ rfl
  refine congrArg₂ (· * ·) ?_ ?_
  · refine congrArg₂ (· + ·) ?_ ?_
    · exact mm_apply (truncf .bf16 x0 bitsLt_bf16_f32) (truncf .bf16 w4 bitsLt_bf16_f32) p q
    · rw [shapeCast_self]
      exact broadcastTo_1b_ab_apply b11 broadcasts_S1x128_S2000x128 p q
  · refine congrArg₂ (· + ·) ?_ ?_
    · exact mm_apply (truncf .bf16 x2 bitsLt_bf16_f32) (truncf .bf16 w6 bitsLt_bf16_f32) p q
    · rw [shapeCast_self]
      exact broadcastTo_1b_ab_apply b16 broadcasts_S1x128_S2000x128 p q

/-! ## Rows of a block are rows of the array

`affine` reads only row `p` of its first argument. If that row of a block is row `r` of the array, and the
block's weight and bias are the array's, the two affine maps agree. -/

theorem affine_of_row {n m : Nat} (x : Cert.Spec.Arr n 128) (X : Cert.Spec.Arr m 128) (w W : Cert.Spec.Arr 128 128)
    (b B : Cert.Spec.Arr 1 128) (p : Fin n) (r : Fin m) (q : Fin 128)
    (hx : ∀ k : Fin 128, x (ix2 p k) = X (ix2 r k)) (hw : ∀ y, w y = W y) (hb : ∀ y, b y = B y) :
    Cert.Spec.affine x w b p q = Cert.Spec.affine X W B r q := by
  unfold Cert.Spec.affine
  rw [hb]
  refine congrArg (· + B (ix2 (0 : Fin 1) q)) (Finset.sum_congr rfl fun k _ => ?_)
  rw [hx k, hw]

/-! ## Where each window's block lies in its array

The grid has 50 points. At point `t` the four row-blocked windows (the two node inputs and the two results) sit at
block index `(t, 0)`, the six weight and bias windows at block index `(0, 0)`: decided over the grid. -/

theorem grid_size : cfg0.N = 50 := N_0

theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- Row `p` of point `t`'s block is row `t * 2000 + p` of the array. -/
abbrev rowOf (t : Fin cfg0.N) (p : Fin 2000) : Fin 100000 :=
  ⟨t.val * 2000 + p.val, by have h50 := grid_size; have := t.isLt; have := p.isLt; omega⟩

/-- The first node input's block at `t`, row `p`, is the array's row `t * 2000 + p`. -/
theorem blk_x (c : Dev nD) (t : Fin cfg0.N) (p : Fin 2000) (k : Fin 128) :
    iblk0 (F := Ideal) V c 0 t (ix2 p k) = V c main_arg0 (ix2 (rowOf t p) k) := by
  obtain ⟨⟨e0, e1⟩, -⟩ := block_index t
  show V c main_arg0 (((cfg0.win 0).blk t).view.emb (ix2 p k)) = _
  refine congrArg (V c main_arg0) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

/-- The second node input's block at `t`, row `p`, is the array's row `t * 2000 + p`. -/
theorem blk_p (c : Dev nD) (t : Fin cfg0.N) (p : Fin 2000) (k : Fin 128) :
    iblk0 (F := Ideal) V c 1 t (ix2 p k) = V c main_arg1 (ix2 (rowOf t p) k) := by
  obtain ⟨-, ⟨e0, e1⟩, -⟩ := block_index t
  show V c main_arg1 (((cfg0.win 1).blk t).view.emb (ix2 p k)) = _
  refine congrArg (V c main_arg1) (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * k.val = k.val; omega

/-- The query weight's block is the whole array at every point. -/
theorem blk_Wq (c : Dev nD) (t : Fin cfg0.N) (y : S128x128.Idx) :
    iblk0 (F := Ideal) V c 2 t y = V c main_arg5 y := by
  obtain ⟨-, -, H⟩ := block_index t
  obtain ⟨e0, e1⟩ := H.1
  show V c main_arg5 (((cfg0.win 2).blk t).view.emb y) = _
  refine congrArg (V c main_arg5) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The query bias's block is the whole one-row array at every point. -/
theorem blk_bq (c : Dev nD) (t : Fin cfg0.N) (y : S1x128.Idx) :
    iblk0 (F := Ideal) V c 3 t y = V c main_v0 y := by
  obtain ⟨-, -, H⟩ := block_index t
  obtain ⟨e0, e1⟩ := H.2.1
  show V c main_v0 (((cfg0.win 3).blk t).view.emb y) = _
  refine congrArg (V c main_v0) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The key weight's block is the whole array at every point. -/
theorem blk_Wk (c : Dev nD) (t : Fin cfg0.N) (y : S128x128.Idx) :
    iblk0 (F := Ideal) V c 4 t y = V c main_arg7 y := by
  obtain ⟨-, -, H⟩ := block_index t
  obtain ⟨e0, e1⟩ := H.2.2.1
  show V c main_arg7 (((cfg0.win 4).blk t).view.emb y) = _
  refine congrArg (V c main_arg7) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The key bias's block is the whole one-row array at every point. -/
theorem blk_bk (c : Dev nD) (t : Fin cfg0.N) (y : S1x128.Idx) :
    iblk0 (F := Ideal) V c 5 t y = V c main_v1 y := by
  obtain ⟨-, -, H⟩ := block_index t
  obtain ⟨e0, e1⟩ := H.2.2.2.1
  show V c main_v1 (((cfg0.win 5).blk t).view.emb y) = _
  refine congrArg (V c main_v1) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- The value weight's block is the whole array at every point. -/
theorem blk_Wv (c : Dev nD) (t : Fin cfg0.N) (y : S128x128.Idx) :
    iblk0 (F := Ideal) V c 6 t y = V c main_arg9 y := by
  obtain ⟨-, -, H⟩ := block_index t
  obtain ⟨e0, e1⟩ := H.2.2.2.2.1
  show V c main_arg9 (((cfg0.win 6).blk t).view.emb y) = _
  refine congrArg (V c main_arg9) (funext fun a => Fin.ext ?_)
  match a with
  | ⟨0, _⟩ => show win0_6.index t (0 : Fin 2) * 128 + 1 * (y 0).val = (y 0).val; omega
  | ⟨1, _⟩ => show win0_6.index t (1 : Fin 2) * 128 + 1 * (y 1).val = (y 1).val; omega

/-- The value bias's block is the whole one-row array at every point. -/
theorem blk_bv (c : Dev nD) (t : Fin cfg0.N) (y : S1x128.Idx) :
    iblk0 (F := Ideal) V c 7 t y = V c main_v2 y := by
  obtain ⟨-, -, H⟩ := block_index t
  obtain ⟨e0, e1⟩ := H.2.2.2.2.2.1
  show V c main_v2 (((cfg0.win 7).blk t).view.emb y) = _
  refine congrArg (V c main_v2) (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega

/-! ## What a point writes back

At point `t` the body stores one payload over the whole of each result's staging buffer, computed from the blocks the
input windows hold there. Read entry by entry, with the block reads above, it is the block of the specification's
array that the point's rectangle names. -/

theorem zero_offsets : (![0, 0] : Fin 2 → Nat) = fun _ => 0 := funext fun a => by fin_cases a <;> rfl

/-- Entry `(p, q)` of point `t`'s block of a result lies at `(t * 2000 + p, q)` of the first result's array. -/
theorem emb_h (t : Fin cfg0.N) (p : Fin 2000) (q : Fin 128) :
    ((cfg0.win 8).blk t).view.emb (ix2 p q) = ix2 (rowOf t p) q := by
  obtain ⟨-, -, -, -, -, -, -, -, ⟨e0, e1⟩, -⟩ := block_index t
  refine funext fun a => Fin.ext ?_
  match a with
  | ⟨0, _⟩ => show win0_8.index t (0 : Fin 2) * 2000 + 1 * p.val = t.val * 2000 + p.val; omega
  | ⟨1, _⟩ => show win0_8.index t (1 : Fin 2) * 128 + 1 * q.val = q.val; omega

/-- The same for the second result's array. -/
theorem emb_v (t : Fin cfg0.N) (p : Fin 2000) (q : Fin 128) :
    ((cfg0.win 9).blk t).view.emb (ix2 p q) = ix2 (rowOf t p) q := by
  obtain ⟨-, -, -, -, -, -, -, -, -, ⟨e0, e1⟩⟩ := block_index t
  refine funext fun a => Fin.ext ?_
  match a with
  | ⟨0, _⟩ => show win0_9.index t (0 : Fin 2) * 2000 + 1 * p.val = t.val * 2000 + p.val; omega
  | ⟨1, _⟩ => show win0_9.index t (1 : Fin 2) * 128 + 1 * q.val = q.val; omega

/-- Point `t` writes back block `t` of `h = relu0 ((x · Wq + bq) * (p · Wk + bk))`. -/
theorem flushed_h (c : Dev nD) (t : Fin cfg0.N) :
    (dat0 (F := Ideal) V c).flushed 8 t = ((cfg0.win 8).blk t).view.read (Elt Ideal)
      (Cert.Spec.hArr (V c main_arg0) (V c main_arg1) (V c main_arg5) (V c main_v0) (V c main_arg7) (V c main_v1)) := by
  show (cfg0.win 8).cut (grid0.coords t) ((dat0 V c).after 8 t) = _
  rw [after0_8]
  unfold out0_8
  rw [View.canon_unit_zero zero_offsets]
  simp only [View.ld_unit_zero (S := S2000x128) zero_offsets, View.ld_unit_zero (S := S128x128) zero_offsets,
    View.ld_unit_zero (S := S1x128) zero_offsets]
  funext j
  obtain ⟨p, q, rfl⟩ : ∃ (p : Fin 2000) (q : Fin 128), j = ix2 p q := ⟨j 0, j 1, eq_ix2 j⟩
  show k0_pay3 (F := Ideal) (iblk0 V c 0 t) (iblk0 V c 1 t) (iblk0 V c 2 t) (iblk0 V c 4 t) (iblk0 V c 3 t) (iblk0 V c 5 t) (ix2 p q)
    = Cert.Spec.hArr (V c main_arg0) (V c main_arg1) (V c main_arg5) (V c main_v0) (V c main_arg7) (V c main_v1)
        (((cfg0.win 8).blk t).view.emb (ix2 p q))
  rw [emb_h t p q]
  refine (pay_h (iblk0 V c 0 t) (iblk0 V c 1 t) (iblk0 V c 2 t) (iblk0 V c 4 t) (iblk0 V c 3 t) (iblk0 V c 5 t) p q).trans ?_
  show _ = Cert.Spec.relu0 (Cert.Spec.affine (V c main_arg0) (V c main_arg5) (V c main_v0) (rowOf t p) q
      * Cert.Spec.affine (V c main_arg1) (V c main_arg7) (V c main_v1) (rowOf t p) q)
  refine congrArg Cert.Spec.relu0 (congrArg₂ (· * ·) ?_ ?_)
  · exact affine_of_row (iblk0 V c 0 t) (V c main_arg0) (iblk0 V c 2 t) (V c main_arg5) (iblk0 V c 3 t) (V c main_v0)
      p (rowOf t p) q (blk_x V c t p) (blk_Wq V c t) (blk_bq V c t)
  · exact affine_of_row (iblk0 V c 1 t) (V c main_arg1) (iblk0 V c 4 t) (V c main_arg7) (iblk0 V c 5 t) (V c main_v1)
      p (rowOf t p) q (blk_p V c t p) (blk_Wk V c t) (blk_bk V c t)

/-- Point `t` writes back block `t` of `v = p · Wv + bv`. -/
theorem flushed_v (c : Dev nD) (t : Fin cfg0.N) :
    (dat0 (F := Ideal) V c).flushed 9 t = ((cfg0.win 9).blk t).view.read (Elt Ideal)
      (Cert.Spec.vArr (V c main_arg1) (V c main_arg9) (V c main_v2)) := by
  show (cfg0.win 9).cut (grid0.coords t) ((dat0 V c).after 9 t) = _
  rw [after0_9]
  unfold out0_9
  rw [View.canon_unit_zero zero_offsets]
  simp only [View.ld_unit_zero (S := S2000x128) zero_offsets, View.ld_unit_zero (S := S128x128) zero_offsets,
    View.ld_unit_zero (S := S1x128) zero_offsets]
  funext j
  obtain ⟨p, q, rfl⟩ : ∃ (p : Fin 2000) (q : Fin 128), j = ix2 p q := ⟨j 0, j 1, eq_ix2 j⟩
  show k0_pay2 (F := Ideal) (iblk0 V c 1 t) (iblk0 V c 6 t) (iblk0 V c 7 t) (ix2 p q)
    = Cert.Spec.vArr (V c main_arg1) (V c main_arg9) (V c main_v2) (((cfg0.win 9).blk t).view.emb (ix2 p q))
  rw [emb_v t p q]
  refine (pay_v (iblk0 V c 1 t) (iblk0 V c 6 t) (iblk0 V c 7 t) p q).trans ?_
  show _ = Cert.Spec.affine (V c main_arg1) (V c main_arg9) (V c main_v2) (rowOf t p) q
  exact affine_of_row (iblk0 V c 1 t) (V c main_arg1) (iblk0 V c 6 t) (V c main_arg9) (iblk0 V c 7 t) (V c main_v2)
    p (rowOf t p) q (blk_p V c t p) (blk_Wv V c t) (blk_bv V c t)

/-! ## The blocks tile the arrays -/

/-- An index of the first result's array is in point `t`'s block iff each coordinate is in the block's range on its axis. -/
theorem mem_blk_h (t : Fin cfg0.N) (i : S100000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v3_0).slice (win0_8.rect t)).set ↔ _
  rw [View.set_slice_whole, Rect.mem_set_unit]
  exact Iff.rfl

/-- Row `r` of the first result's array lies in the block of point `r / 2000`, and every point writes its block back: the
    50 blocks of 2000 rows tile the 100000 rows. -/
theorem cover_h (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by have h50 := grid_size; omega⟩, rfl⟩
  obtain ⟨e0, e1⟩ := (block_index t).2.2.2.2.2.2.2.2.1
  refine ⟨t, flush0_8 t, ?_⟩
  rw [mem_blk_h]
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 128 ≤ (i 1).val ∧ (i 1).val < win0_8.index t (1 : Fin 2) * 128 + 128; omega

/-- An index of the second result's array is in point `t`'s block iff each coordinate is in the block's range on its axis. -/
theorem mem_blk_v (t : Fin cfg0.N) (i : S100000x128.Idx) :
    i ∈ ((cfg0.win 9).blk t).view.set ↔ ∀ a : Fin 2, win0_9.index t a * S2000x128.size a ≤ (i a).val
      ∧ (i a).val < win0_9.index t a * S2000x128.size a + S2000x128.size a := by
  show i ∈ ((View.whole main_v3_1).slice (win0_9.rect t)).set ↔ _
  rw [View.set_slice_whole, Rect.mem_set_unit]
  exact Iff.rfl

/-- Row `r` of the second result's array lies in the block of point `r / 2000`, and every point writes its block back: the
    50 blocks of 2000 rows tile the 100000 rows. -/
theorem cover_v (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by have h50 := grid_size; omega⟩, rfl⟩
  obtain ⟨e0, e1⟩ := (block_index t).2.2.2.2.2.2.2.2.2
  refine ⟨t, flush0_9 t, ?_⟩
  rw [mem_blk_v]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 128 ≤ (i 1).val ∧ (i 1).val < win0_9.index t (1 : Fin 2) * 128 + 128; omega

/-! ## The two results after the region -/

/-- After the 50 points the first result's array holds `h = relu0 ((x · Wq + bq) * (p · Wk + bk))` of the arrays the
    region found: every point writes its block of it, and the blocks cover the array. -/
theorem arr_h (c : Dev nD) : (dat0 (F := Ideal) V c).arrAt 8 cfg0.N
    = Cert.Spec.hArr (V c main_arg0) (V c main_arg1) (V c main_arg5) (V c main_v0) (V c main_arg7) (V c main_v1) :=
  (dat0 (F := Ideal) V c).arrAt_eq_of_cover 8 _ (fun t _ => flushed_h V c t) cover_h

/-- After the 50 points the second result's array holds `v = p · Wv + bv` of the arrays the region found. -/
theorem arr_v (c : Dev nD) : (dat0 (F := Ideal) V c).arrAt 9 cfg0.N
    = Cert.Spec.vArr (V c main_arg1) (V c main_arg9) (V c main_v2) :=
  (dat0 (F := Ideal) V c).arrAt_eq_of_cover 9 _ (fun t _ => flushed_v V c t) cover_v

end Cert.KernelIdeal.Region0

end
-- ==== Proof.Region1.lean ====
import proofs.«427256_j19507741458639_1_alg».proof.Proof.Gen.KernelIdeal.Frame
import proofs.«427256_j19507741458639_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! # The edge kernel's region: its two result arrays are the specification's

The region runs the edge kernel over 160 grid points, 4000 edge rows each. Every operation of the body is row-wise: row `r`
of a result needs row `r` of the row-blocked operands and the whole weights and biases. So the value stored at `(p, q)` of
point `t`'s block is the specification's entry at row `t · 4000 + p`, and since the blocks tile the arrays and every point
writes back, the arrays end holding the specification's functions. -/

/-! ## The block matmul at an index

The kernel's one contraction record multiplies a `4000 × 128` block by a `128 × 128` weight, contracting the block's
column axis against the weight's row axis. Read at `(p, q)` with a zero accumulator it is `∑ k, l (p, k) * r (k, q)`. -/

/-- The left operand's row axis is free: it follows the output's row. -/
theorem edgeDot_lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column axis is the contracted one. -/
theorem edgeDot_lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row axis is the contracted one. -/
theorem edgeDot_rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- The right operand's column axis is free: it follows the output's column. -/
theorem edgeDot_rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The block matmul into a zero accumulator, at `(p, q)`: row `p` of the block against column `q` of the weight. -/
theorem edgeDot_apply {φ₁ φ₂ : FTy} (l : FVec Ideal S4000x128 φ₁) (r : FVec Ideal S128x128 φ₂) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) := by
  refine (Ideal.matmul_constant_zero_apply dot_S4000x128_S128x128_S4000x128_1_0_0_1_n_n none l r (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact edgeDot_lhs_row _ _
    | ⟨1, _⟩ => exact (edgeDot_lhs_col _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (edgeDot_rhs_row _ _).trans hk
    | ⟨1, _⟩ => exact edgeDot_rhs_col _ _)
  rw [el, er]

/-! ## One linear layer on a block

Both layers of the edge kernel have the same shape: a block `a` of 4000 rows goes through `relu0 (a · W + b)`, the bias
row `b` repeated over the rows. Entry `(p, q)` needs row `p` of `a` only. -/

/-- `A · W + b` at `(p, q)` reads row `p` of `A` only: two arrays, of whatever heights, whose rows `p` and `r` agree
    give the same entry there. -/
theorem affine_rows {n n' K M : Nat} (A : Cert.Spec.Arr n K) (A' : Cert.Spec.Arr n' K) (W : Cert.Spec.Arr K M) (b : Cert.Spec.Arr 1 M)
    (p : Fin n) (r : Fin n') (q : Fin M) (h : ∀ k : Fin K, A (ix2 p k) = A' (ix2 r k)) :
    Cert.Spec.affine A W b p q = Cert.Spec.affine A' W b r q := by
  unfold Cert.Spec.affine
  exact congrArg (· + b (ix2 (0 : Fin 1) q)) (Finset.sum_congr rfl fun k _ => by rw [h k])

/-- The kernel's layer — the block and the weight narrowed (the identity on extended reals), multiplied into a zero
    accumulator, the bias row broadcast over the rows and added, the maximum with zero — is `relu0 (a · w + b)` entry by
    entry. -/
theorem layer_apply (a : FVec Ideal S4000x128 .f32) (w : Vec Ideal S128x128 .f32) (b : Vec Ideal S1x128 .f32) (p : Fin 4000) (q : Fin 128) :
    maximumf (addf (matmul dot_S4000x128_S128x128_S4000x128_1_0_0_1_n_n none (truncf .bf16 a bitsLt_bf16_f32) (truncf .bf16 w bitsLt_bf16_f32) (constant (F := Ideal) S4000x128 .f32 0x00000000#32))
        (broadcastTo S4000x128 (shapeCast S1x128 b shapeCasts_S1x128_S1x128) broadcasts_S1x128_S4000x128))
      (broadcast S4000x128 (Scalar.ofBits (F := Ideal) .f32 0x00000000#32)) (ix2 p q)
      = Cert.Spec.relu0 (Cert.Spec.affine a w b p q) := by
  show max (matmul dot_S4000x128_S128x128_S4000x128_1_0_0_1_n_n none (truncf .bf16 a bitsLt_bf16_f32) (truncf .bf16 w bitsLt_bf16_f32) (constant (F := Ideal) S4000x128 .f32 0x00000000#32) (ix2 p q)
        + broadcastTo S4000x128 (shapeCast S1x128 b shapeCasts_S1x128_S1x128) broadcasts_S1x128_S4000x128 (ix2 p q)) (Ideal.ofBits .f32 0x00000000#32)
      = max ((∑ k : Fin 128, a (ix2 p k) * w (ix2 k q)) + b (ix2 (0 : Fin 1) q)) (Ideal.ofBits .f32 0x00000000#32)
  rw [edgeDot_apply, shapeCast_self, broadcastTo_1b_ab_apply]
  rfl

/-! ## The payloads at an index

The body's two stored values, read at `(p, q)` of the block, against the specification's arrays at row `r`, whenever row `p`
of each row-blocked operand is row `r` of its array. The weights and biases enter whole. -/

/-- The first stored value is the updated edge feature: the second layer over `e₁ + π`, `e₁` the first layer over `a + π`;
    row `p` of the block's `e₁` is row `r` of the array's `e₁`, because the first layer reads that row only. -/
theorem pay_e_row (x1 x2 : Vec Ideal S4000x128 .f32) (w1 w2 : Vec Ideal S128x128 .f32) (b1 b2 : Vec Ideal S1x128 .f32)
    (EA PE : Cert.Spec.Arr 640000 128) (p : Fin 4000) (r : Fin 640000) (q : Fin 128)
    (h1 : ∀ k : Fin 128, x1 (ix2 p k) = EA (ix2 r k)) (h2 : ∀ k : Fin 128, x2 (ix2 p k) = PE (ix2 r k)) :
    k1_pay1 (F := Ideal) x1 x2 w1 w2 b1 b2 (ix2 p q) = Cert.Spec.eArr EA PE w1 b1 w2 b2 (ix2 r q) := by
  unfold k1_pay1
  refine (layer_apply _ w2 b2 p q).trans ?_
  show Cert.Spec.relu0 (Cert.Spec.affine _ w2 b2 p q) = Cert.Spec.relu0 (Cert.Spec.affine (fun i => Cert.Spec.e1Arr EA PE w1 b1 i + PE i) w2 b2 r q)
  refine congrArg Cert.Spec.relu0 (affine_rows _ _ w2 b2 p r q fun k => ?_)
  -- entry `(p, k)` of the block's `e₁ + π` against entry `(r, k)` of the array's
  refine congrArg₂ (· + ·) ?_ (h2 k)
  refine (layer_apply _ w1 b1 p k).trans ?_
  show Cert.Spec.relu0 (Cert.Spec.affine _ w1 b1 p k) = Cert.Spec.relu0 (Cert.Spec.affine (fun i => EA i + PE i) w1 b1 r k)
  refine congrArg Cert.Spec.relu0 (affine_rows _ _ w1 b1 p r k fun k' => ?_)
  show x1 (ix2 p k') + x2 (ix2 p k') = EA (ix2 r k') + PE (ix2 r k')
  rw [h1 k', h2 k']

/-- The second stored value is the message: the source row plus the updated edge feature, through `relu0`. -/
theorem pay_msg_row (x0 x1 x2 : Vec Ideal S4000x128 .f32) (w1 w2 : Vec Ideal S128x128 .f32) (b1 b2 : Vec Ideal S1x128 .f32)
    (SRC EA PE : Cert.Spec.Arr 640000 128) (p : Fin 4000) (r : Fin 640000) (q : Fin 128)
    (h0 : x0 (ix2 p q) = SRC (ix2 r q))
    (h1 : ∀ k : Fin 128, x1 (ix2 p k) = EA (ix2 r k)) (h2 : ∀ k : Fin 128, x2 (ix2 p k) = PE (ix2 r k)) :
    k1_pay2 (F := Ideal) x1 x2 w1 w2 b1 b2 x0 (ix2 p q) = Cert.Spec.msgArr SRC EA PE w1 b1 w2 b2 (ix2 r q) := by
  unfold k1_pay2
  show max (shapeCast S4000x128 x0 shapeCasts_S4000x128_S4000x128 (ix2 p q) + k1_pay1 (F := Ideal) x1 x2 w1 w2 b1 b2 (ix2 p q)) (Ideal.ofBits .f32 0x00000000#32)
      = max (SRC (ix2 r q) + Cert.Spec.eArr EA PE w1 b1 w2 b2 (ix2 r q)) (Ideal.ofBits .f32 0x00000000#32)
  rw [shapeCast_self, pay_e_row x1 x2 w1 w2 b1 b2 EA PE p r q h1 h2, h0]

/-! ## The blocks a grid point reads and writes

The grid has 160 points. Point `t` stages rows `t · 4000 … t · 4000 + 3999` of the three row-blocked operands and of the
two results, and the whole of each weight and bias. -/

/-- The stores' offset is the origin. -/
theorem origin2 : (![0, 0] : Fin 2 → Nat) = fun _ => 0 := funext fun a => by fin_cases a <;> rfl

/-- A grid point is below 160. -/
theorem point_lt (t : Fin cfg1.N) : t.val < 160 := lt_of_lt_of_eq t.isLt N_1

/-- The printed index maps over the grid: a row-blocked window's block index is `(t, 0)`, a weight's or bias's `(0, 0)`. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0)
    ∧ (win1_8.index t (0 : Fin 2) = t.val ∧ win1_8.index t (1 : Fin 2) = 0) :=
  (by decide +kernel : ∀ t : Fin grid1.N, _)

/-- The array row that row `p` of point `t`'s block is. -/
def rowOf (t : Fin cfg1.N) (p : Fin 4000) : Fin 640000 :=
  ⟨t.val * 4000 + p.val, by have := point_lt t; have := p.isLt; omega⟩

/-- Row `p` of window 0's block at point `t` is row `t · 4000 + p` of the source rows, the columns unmoved. -/
theorem emb_rows_0 (t : Fin cfg1.N) (p : Fin 4000) (q : Fin 128) :
    ((cfg1.win 0).blk t).view.emb (ix2 p q) = ix2 (rowOf t p) q := by
  have e := idx_facts t
  funext a; apply Fin.ext
  match a with
  | ⟨0, _⟩ => show win1_0.index t (0 : Fin 2) * 4000 + 1 * p.val = t.val * 4000 + p.val; omega
  | ⟨1, _⟩ => show win1_0.index t (1 : Fin 2) * 128 + 1 * q.val = q.val; omega

/-- Row `p` of window 1's block at point `t` is row `t · 4000 + p` of the edge attributes, the columns unmoved. -/
theorem emb_rows_1 (t : Fin cfg1.N) (p : Fin 4000) (q : Fin 128) :
    ((cfg1.win 1).blk t).view.emb (ix2 p q) = ix2 (rowOf t p) q := by
  have e := idx_facts t
  funext a; apply Fin.ext
  match a with
  | ⟨0, _⟩ => show win1_1.index t (0 : Fin 2) * 4000 + 1 * p.val = t.val * 4000 + p.val; omega
  | ⟨1, _⟩ => show win1_1.index t (1 : Fin 2) * 128 + 1 * q.val = q.val; omega

/-- Row `p` of window 2's block at point `t` is row `t · 4000 + p` of the edge prompt, the columns unmoved. -/
theorem emb_rows_2 (t : Fin cfg1.N) (p : Fin 4000) (q : Fin 128) :
    ((cfg1.win 2).blk t).view.emb (ix2 p q) = ix2 (rowOf t p) q := by
  have e := idx_facts t
  funext a; apply Fin.ext
  match a with
  | ⟨0, _⟩ => show win1_2.index t (0 : Fin 2) * 4000 + 1 * p.val = t.val * 4000 + p.val; omega
  | ⟨1, _⟩ => show win1_2.index t (1 : Fin 2) * 128 + 1 * q.val = q.val; omega

/-- Row `p` of window 7's block at point `t` is row `t · 4000 + p` of the updated edge features, the columns unmoved. -/
theorem emb_rows_7 (t : Fin cfg1.N) (p : Fin 4000) (q : Fin 128) :
    ((cfg1.win 7).blk t).view.emb (ix2 p q) = ix2 (rowOf t p) q := by
  have e := idx_facts t
  funext a; apply Fin.ext
  match a with
  | ⟨0, _⟩ => show win1_7.index t (0 : Fin 2) * 4000 + 1 * p.val = t.val * 4000 + p.val; omega
  | ⟨1, _⟩ => show win1_7.index t (1 : Fin 2) * 128 + 1 * q.val = q.val; omega

/-- Row `p` of window 8's block at point `t` is row `t · 4000 + p` of the messages, the columns unmoved. -/
theorem emb_rows_8 (t : Fin cfg1.N) (p : Fin 4000) (q : Fin 128) :
    ((cfg1.win 8).blk t).view.emb (ix2 p q) = ix2 (rowOf t p) q := by
  have e := idx_facts t
  funext a; apply Fin.ext
  match a with
  | ⟨0, _⟩ => show win1_8.index t (0 : Fin 2) * 4000 + 1 * p.val = t.val * 4000 + p.val; omega
  | ⟨1, _⟩ => show win1_8.index t (1 : Fin 2) * 128 + 1 * q.val = q.val; omega

/-- The first layer's weight is staged whole at every point: its one block is the array. -/
theorem blk_We1 (c : Dev nD) (t : Fin cfg1.N) : iblk1 (F := Ideal) V c 3 t = V c main_arg11 := by
  have e := idx_facts t
  funext y
  show V c main_arg11 (((cfg1.win 3).blk t).view.emb y) = V c main_arg11 y
  refine congrArg (V c main_arg11) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The first layer's bias row is staged whole at every point: its one block is the array. -/
theorem blk_be1 (c : Dev nD) (t : Fin cfg1.N) : iblk1 (F := Ideal) V c 4 t = V c main_v7 := by
  have e := idx_facts t
  funext y
  show V c main_v7 (((cfg1.win 4).blk t).view.emb y) = V c main_v7 y
  refine congrArg (V c main_v7) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The second layer's weight is staged whole at every point: its one block is the array. -/
theorem blk_We2 (c : Dev nD) (t : Fin cfg1.N) : iblk1 (F := Ideal) V c 5 t = V c main_arg13 := by
  have e := idx_facts t
  funext y
  show V c main_arg13 (((cfg1.win 5).blk t).view.emb y) = V c main_arg13 y
  refine congrArg (V c main_arg13) (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- The second layer's bias row is staged whole at every point: its one block is the array. -/
theorem blk_be2 (c : Dev nD) (t : Fin cfg1.N) : iblk1 (F := Ideal) V c 6 t = V c main_v8 := by
  have e := idx_facts t
  funext y
  show V c main_v8 (((cfg1.win 6).blk t).view.emb y) = V c main_v8 y
  refine congrArg (V c main_v8) (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-! ## What a point writes back, and the whole arrays

Point `t` writes back block `t` of the specification's array; the blocks tile the array; so the array ends holding it. -/

/-- Point `t` writes block `t` of the updated edge features: entry `(p, q)` of the stored value is the specification's
    entry `(t · 4000 + p, q)`, the weights and biases whole, the row-blocked operands read at that row. -/
theorem flushed_e (c : Dev nD) (t : Fin cfg1.N) :
    (dat1 (F := Ideal) V c).flushed 7 t = ((cfg1.win 7).blk t).view.read (Elt Ideal)
      (Cert.Spec.eArr (V c main_arg2) (V c main_arg3) (V c main_arg11) (V c main_v7) (V c main_arg13) (V c main_v8)) := by
  show (cfg1.win 7).cut (grid1.coords t) ((dat1 (F := Ideal) V c).after 7 t) = _
  rw [after1_7]
  unfold out1_7
  rw [View.canon_unit_zero origin2]
  simp only [View.ld_unit_zero (S := S4000x128) origin2, View.ld_unit_zero (S := S128x128) origin2, View.ld_unit_zero (S := S1x128) origin2]
  rw [blk_We1 V c t, blk_be1 V c t, blk_We2 V c t, blk_be2 V c t]
  funext j
  obtain ⟨p, q, rfl⟩ : ∃ (p : Fin 4000) (q : Fin 128), j = ix2 p q := ⟨j 0, j 1, eq_ix2 j⟩
  show k1_pay1 (F := Ideal) (iblk1 V c 1 t) (iblk1 V c 2 t) (V c main_arg11) (V c main_arg13) (V c main_v7) (V c main_v8) (ix2 p q)
      = Cert.Spec.eArr (V c main_arg2) (V c main_arg3) (V c main_arg11) (V c main_v7) (V c main_arg13) (V c main_v8) (((cfg1.win 7).blk t).view.emb (ix2 p q))
  rw [emb_rows_7 t p q]
  exact pay_e_row (iblk1 V c 1 t) (iblk1 V c 2 t) (V c main_arg11) (V c main_arg13) (V c main_v7) (V c main_v8) (V c main_arg2) (V c main_arg3) p (rowOf t p) q
    (fun k => congrArg (V c main_arg2) (emb_rows_1 t p k)) (fun k => congrArg (V c main_arg3) (emb_rows_2 t p k))

/-- Point `t` writes block `t` of the messages, likewise, the source rows read at the same row. -/
theorem flushed_msg (c : Dev nD) (t : Fin cfg1.N) :
    (dat1 (F := Ideal) V c).flushed 8 t = ((cfg1.win 8).blk t).view.read (Elt Ideal)
      (Cert.Spec.msgArr (V c main_v6) (V c main_arg2) (V c main_arg3) (V c main_arg11) (V c main_v7) (V c main_arg13) (V c main_v8)) := by
  show (cfg1.win 8).cut (grid1.coords t) ((dat1 (F := Ideal) V c).after 8 t) = _
  rw [after1_8]
  unfold out1_8
  rw [View.canon_unit_zero origin2]
  simp only [View.ld_unit_zero (S := S4000x128) origin2, View.ld_unit_zero (S := S128x128) origin2, View.ld_unit_zero (S := S1x128) origin2]
  rw [blk_We1 V c t, blk_be1 V c t, blk_We2 V c t, blk_be2 V c t]
  funext j
  obtain ⟨p, q, rfl⟩ : ∃ (p : Fin 4000) (q : Fin 128), j = ix2 p q := ⟨j 0, j 1, eq_ix2 j⟩
  show k1_pay2 (F := Ideal) (iblk1 V c 1 t) (iblk1 V c 2 t) (V c main_arg11) (V c main_arg13) (V c main_v7) (V c main_v8) (iblk1 V c 0 t) (ix2 p q)
      = Cert.Spec.msgArr (V c main_v6) (V c main_arg2) (V c main_arg3) (V c main_arg11) (V c main_v7) (V c main_arg13) (V c main_v8) (((cfg1.win 8).blk t).view.emb (ix2 p q))
  rw [emb_rows_8 t p q]
  exact pay_msg_row (iblk1 V c 0 t) (iblk1 V c 1 t) (iblk1 V c 2 t) (V c main_arg11) (V c main_arg13) (V c main_v7) (V c main_v8) (V c main_v6) (V c main_arg2) (V c main_arg3) p (rowOf t p) q
    (congrArg (V c main_v6) (emb_rows_0 t p q))
    (fun k => congrArg (V c main_arg2) (emb_rows_1 t p k)) (fun k => congrArg (V c main_arg3) (emb_rows_2 t p k))

/-- An index of the array is in point `t`'s block of window 7 iff each coordinate is in the block's range on its axis. -/
theorem mem_blk_e (t : Fin cfg1.N) (i : S640000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v9_0).slice (win1_7.rect t)).set ↔ _
  rw [View.set_slice_whole, Rect.mem_set_unit]
  exact Iff.rfl

/-- The blocks tile the array: row `r` lies in the block of point `r / 4000`, and every point writes back. -/
theorem cover_e (i : S640000x128.Idx) :
    ∃ t : Fin cfg1.N, (cfg1.win 7).flush t = true ∧ i ∈ ((cfg1.win 7).blk t).view.set := by
  have hi0 : (i 0).val < 640000 := (i 0).isLt
  have hi1 : (i 1).val < 128 := (i 1).isLt
  obtain ⟨t, ht⟩ : ∃ t : Fin cfg1.N, t.val = (i 0).val / 4000 :=
    ⟨⟨(i 0).val / 4000, lt_of_lt_of_eq (by omega : (i 0).val / 4000 < 160) N_1.symm⟩, rfl⟩
  have e := idx_facts t
  refine ⟨t, flush1_7 t, ?_⟩
  rw [mem_blk_e]
  intro a
  match a with
  | ⟨0, _⟩ => show win1_7.index t (0 : Fin 2) * 4000 ≤ (i 0).val ∧ (i 0).val < win1_7.index t (0 : Fin 2) * 4000 + 4000; omega
  | ⟨1, _⟩ => show win1_7.index t (1 : Fin 2) * 128 ≤ (i 1).val ∧ (i 1).val < win1_7.index t (1 : Fin 2) * 128 + 128; omega

/-- An index of the array is in point `t`'s block of window 8 iff each coordinate is in the block's range on its axis. -/
theorem mem_blk_msg (t : Fin cfg1.N) (i : S640000x128.Idx) :
    i ∈ ((cfg1.win 8).blk t).view.set ↔ ∀ a : Fin 2, win1_8.index t a * S4000x128.size a ≤ (i a).val ∧ (i a).val < win1_8.index t a * S4000x128.size a + S4000x128.size a := by
  show i ∈ ((View.whole main_v9_1).slice (win1_8.rect t)).set ↔ _
  rw [View.set_slice_whole, Rect.mem_set_unit]
  exact Iff.rfl

/-- The blocks tile the array: row `r` lies in the block of point `r / 4000`, and every point writes back. -/
theorem cover_msg (i : S640000x128.Idx) :
    ∃ t : Fin cfg1.N, (cfg1.win 8).flush t = true ∧ i ∈ ((cfg1.win 8).blk t).view.set := by
  have hi0 : (i 0).val < 640000 := (i 0).isLt
  have hi1 : (i 1).val < 128 := (i 1).isLt
  obtain ⟨t, ht⟩ : ∃ t : Fin cfg1.N, t.val = (i 0).val / 4000 :=
    ⟨⟨(i 0).val / 4000, lt_of_lt_of_eq (by omega : (i 0).val / 4000 < 160) N_1.symm⟩, rfl⟩
  have e := idx_facts t
  refine ⟨t, flush1_8 t, ?_⟩
  rw [mem_blk_msg]
  intro a
  match a with
  | ⟨0, _⟩ => show win1_8.index t (0 : Fin 2) * 4000 ≤ (i 0).val ∧ (i 0).val < win1_8.index t (0 : Fin 2) * 4000 + 4000; omega
  | ⟨1, _⟩ => show win1_8.index t (1 : Fin 2) * 128 ≤ (i 1).val ∧ (i 1).val < win1_8.index t (1 : Fin 2) * 128 + 128; omega

/-- After the region the second result's array holds the updated edge features of the arrays the region found. -/
theorem arr_e (c : Dev nD) : (dat1 (F := Ideal) V c).arrAt 7 cfg1.N
    = Cert.Spec.eArr (V c main_arg2) (V c main_arg3) (V c main_arg11) (V c main_v7) (V c main_arg13) (V c main_v8) := by
  exact (dat1 (F := Ideal) V c).arrAt_eq_of_cover 7 _ (fun t _ => flushed_e V c t) cover_e

/-- After the region the message array holds `relu0 (src + e)` of the arrays the region found. -/
theorem arr_msg (c : Dev nD) : (dat1 (F := Ideal) V c).arrAt 8 cfg1.N
    = Cert.Spec.msgArr (V c main_v6) (V c main_arg2) (V c main_arg3) (V c main_arg11) (V c main_v7) (V c main_arg13) (V c main_v8) := by
  exact (dat1 (F := Ideal) V c).arrAt_eq_of_cover 8 _ (fun t _ => flushed_msg V c t) cover_msg

end Cert.KernelIdeal.Region1

end
-- ==== Proof.Region2.lean ====
import proofs.«427256_j19507741458639_1_alg».proof.Proof.Gen.KernelIdeal.Frame
import proofs.«427256_j19507741458639_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The three products of the block, entry by entry

Each `tpu.matmul` of the body contracts the left operand's column axis with the right operand's row axis and starts
from a zero accumulator, so at the extended reals its entry `(p, q)` is the plain sum `∑ k, l (p, k) * r (k, q)`. The
contraction index has one axis; the sum over it is re-indexed to a sum over `Fin K`. -/

/-! ### `[2000,128] · [128,128]`: the update layer -/

/-- The left operand is read on its row axis at the output's row. -/
theorem mmA_lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand is read on its column axis at the contracted coordinate. -/
theorem mmA_lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand is read on its row axis at the contracted coordinate. -/
theorem mmA_rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand is read on its column axis at the output's column. -/
theorem mmA_rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry `(p, q)` of the product accumulated from zero is `∑ k, l (p, k) * r (k, q)`. -/
theorem mmA_apply {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  show FloatOps.matmul dot_S2000x128_S128x128_S2000x128_1_0_0_1_n_n none l r (constant (F := Ideal) S2000x128 .f32 0x00000000#32) (ix2 p q) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact mmA_lhs_row _ _
    | ⟨1, _⟩ => exact (mmA_lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (mmA_rhs_row _ _).trans hk
    | ⟨1, _⟩ => exact mmA_rhs_col _ _)
  rw [el, er]

/-! ### `[2000,128] · [128,256]`: the hidden layer of the feed-forward block -/

/-- The left operand is read on its row axis at the output's row. -/
theorem mmB_lhs_row (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- The left operand is read on its column axis at the contracted coordinate. -/
theorem mmB_lhs_col (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- The right operand is read on its row axis at the contracted coordinate. -/
theorem mmB_rhs_row (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- The right operand is read on its column axis at the output's column. -/
theorem mmB_rhs_col (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- Entry `(p, q)` of the product accumulated from zero is `∑ k, l (p, k) * r (k, q)`. -/
theorem mmB_apply {φ₁ φ₂ : FTy} (l : FVec Ideal S2000x128 φ₁) (r : FVec Ideal S128x256 φ₂) (p : Fin 2000) (q : Fin 256) :
    matmul dot_S2000x128_S128x256_S2000x256_1_0_0_1_n_n none l r (constant (F := Ideal) S2000x256 .f32 0x00000000#32) (ix2 p q)
      = ∑ k : Fin 128, l (ix2 p k) * r (ix2 k q) := by
  show FloatOps.matmul dot_S2000x128_S128x256_S2000x256_1_0_0_1_n_n none l r (constant (F := Ideal) S2000x256 .f32 0x00000000#32) (ix2 p q) = _
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact mmB_lhs_row _ _
    | ⟨1, _⟩ => exact (mmB_lhs_col _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (mmB_rhs_row _ _).trans hk
    | ⟨1, _⟩ => exact mmB_rhs_col _ _)
  rw [el, er]

/-! ### `[2000,256] · [256,128]`: the output layer of the feed-forward block -/

/-- The left operand is read on its row axis at the output's row. -/
theorem mmC_lhs_row (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- The left operand is read on its column axis at the contracted coordinate. -/
theorem mmC_lhs_col (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- The right operand is read on its row axis at the contracted coordinate. -/
theorem mmC_rhs_row (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- The right operand is read on its column axis at the output's column. -/
theorem mmC_rhs_col (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Entry `(p, q)` of the product accumulated from zero is `∑ k, l (p, k) * r (k, q)`. -/
theorem mmC_apply {φ₁ φ₂ : FTy} (l : FVec Ideal S2000x256 φ₁) (r : FVec Ideal S256x128 φ₂) (p : Fin 2000) (q : Fin 128) :
    matmul dot_S2000x256_S256x128_S2000x128_1_0_0_1_n_n none l r (constant (F := Ideal) S2000x128 .f32 0x00000000#32) (ix2 p q)
      = ∑ k : Fin 256, l (ix2 p k) * r (ix2 k q) := by
  show FloatOps.matmul dot_S2000x256_S256x128_S2000x128_1_0_0_1_n_n none l r (constant (F := Ideal) S2000x128 .f32 0x00000000#32) (ix2 p q) = _
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact mmC_lhs_row _ _
    | ⟨1, _⟩ => exact (mmC_lhs_col _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (mmC_rhs_row _ _).trans hk
    | ⟨1, _⟩ => exact mmC_rhs_col _ _)
  rw [el, er]

/-! ## The node-update stages on any number of rows

The three stages of the specification's node update are row-wise: row `r` of a stage needs row `r` of the stage before
it and the whole weight and bias. So they make sense on any number `n` of rows: on the whole array (`n = 100000`, where
they are the specification's `hoArr`, `hfArr`, `outArr`) and on one block of 2000 consecutive rows, which is what the
body computes at one grid point. -/

/-- `o = relu0 ((h + v + aggr) · Wh + bh) + x` on `n` rows. -/
def oRows {n : Nat} (H U AG X : Cert.Spec.Arr n 128) (Wh : Cert.Spec.Arr 128 128) (bh : Cert.Spec.Arr 1 128) : Cert.Spec.Arr n 128 :=
  Cert.Spec.ofCoords fun r q => Cert.Spec.relu0 (Cert.Spec.affine (fun i => H i + U i + AG i) Wh bh r q) + X (ix2 r q)

/-- `f = relu0 (o · Wf1 + bf1)` on `n` rows, 256 wide. -/
def fRows {n : Nat} (H U AG X : Cert.Spec.Arr n 128) (Wh : Cert.Spec.Arr 128 128) (bh : Cert.Spec.Arr 1 128)
    (Wf1 : Cert.Spec.Arr 128 256) (bf1 : Cert.Spec.Arr 1 256) : Cert.Spec.Arr n 256 :=
  Cert.Spec.ofCoords fun r q => Cert.Spec.relu0 (Cert.Spec.affine (oRows H U AG X Wh bh) Wf1 bf1 r q)

/-- `out = f · Wf2 + bf2` on `n` rows. -/
def outRows {n : Nat} (H U AG X : Cert.Spec.Arr n 128) (Wh : Cert.Spec.Arr 128 128) (bh : Cert.Spec.Arr 1 128)
    (Wf1 : Cert.Spec.Arr 128 256) (bf1 : Cert.Spec.Arr 1 256) (Wf2 : Cert.Spec.Arr 256 128) (bf2 : Cert.Spec.Arr 1 128) : Cert.Spec.Arr n 128 :=
  Cert.Spec.ofCoords (Cert.Spec.affine (fRows H U AG X Wh bh Wf1 bf1) Wf2 bf2)

/-- On all 100000 rows the last stage is the specification's result array. -/
theorem outArr_eq_outRows (H U AG X : Cert.Spec.Arr 100000 128) (Wh : Cert.Spec.Arr 128 128) (bh : Cert.Spec.Arr 1 128)
    (Wf1 : Cert.Spec.Arr 128 256) (bf1 : Cert.Spec.Arr 1 256) (Wf2 : Cert.Spec.Arr 256 128) (bf2 : Cert.Spec.Arr 1 128) :
    Cert.Spec.outArr H U AG X Wh bh Wf1 bf1 Wf2 bf2 = outRows H U AG X Wh bh Wf1 bf1 Wf2 bf2 := rfl

/-! ### A row of a stage needs only that row of its input

If row `p` of `a` is row `r` of `A`, then row `p` of `a · W + b` is row `r` of `A · W + b`: the sum over the contracted
axis reads nothing else of the left operand. The three stages inherit this one after the other. -/

theorem affine_row_congr {n m K M : Nat} (a : Cert.Spec.Arr n K) (A : Cert.Spec.Arr m K) (W : Cert.Spec.Arr K M) (b : Cert.Spec.Arr 1 M)
    (p : Fin n) (r : Fin m) (h : ∀ k : Fin K, a (ix2 p k) = A (ix2 r k)) (q : Fin M) :
    Cert.Spec.affine a W b p q = Cert.Spec.affine A W b r q := by
  unfold Cert.Spec.affine
  exact congrArg (· + b (ix2 (0 : Fin 1) q)) (Finset.sum_congr rfl fun k _ => congrArg (· * W (ix2 k q)) (h k))

theorem oRows_row {n m : Nat} (h u ag x : Cert.Spec.Arr n 128) (H U AG X : Cert.Spec.Arr m 128) (Wh : Cert.Spec.Arr 128 128) (bh : Cert.Spec.Arr 1 128)
    (p : Fin n) (r : Fin m) (e0 : ∀ k : Fin 128, h (ix2 p k) = H (ix2 r k)) (e1 : ∀ k : Fin 128, u (ix2 p k) = U (ix2 r k))
    (e2 : ∀ k : Fin 128, ag (ix2 p k) = AG (ix2 r k)) (e3 : ∀ k : Fin 128, x (ix2 p k) = X (ix2 r k)) (q : Fin 128) :
    oRows h u ag x Wh bh (ix2 p q) = oRows H U AG X Wh bh (ix2 r q) := by
  show Cert.Spec.relu0 (Cert.Spec.affine (fun i => h i + u i + ag i) Wh bh p q) + x (ix2 p q)
      = Cert.Spec.relu0 (Cert.Spec.affine (fun i => H i + U i + AG i) Wh bh r q) + X (ix2 r q)
  rw [affine_row_congr (fun i => h i + u i + ag i) (fun i => H i + U i + AG i) Wh bh p r
        (fun k => by show h (ix2 p k) + u (ix2 p k) + ag (ix2 p k) = H (ix2 r k) + U (ix2 r k) + AG (ix2 r k); rw [e0 k, e1 k, e2 k]) q, e3 q]

theorem fRows_row {n m : Nat} (h u ag x : Cert.Spec.Arr n 128) (H U AG X : Cert.Spec.Arr m 128) (Wh : Cert.Spec.Arr 128 128) (bh : Cert.Spec.Arr 1 128)
    (Wf1 : Cert.Spec.Arr 128 256) (bf1 : Cert.Spec.Arr 1 256)
    (p : Fin n) (r : Fin m) (e0 : ∀ k : Fin 128, h (ix2 p k) = H (ix2 r k)) (e1 : ∀ k : Fin 128, u (ix2 p k) = U (ix2 r k))
    (e2 : ∀ k : Fin 128, ag (ix2 p k) = AG (ix2 r k)) (e3 : ∀ k : Fin 128, x (ix2 p k) = X (ix2 r k)) (q : Fin 256) :
    fRows h u ag x Wh bh Wf1 bf1 (ix2 p q) = fRows H U AG X Wh bh Wf1 bf1 (ix2 r q) := by
  show Cert.Spec.relu0 (Cert.Spec.affine (oRows h u ag x Wh bh) Wf1 bf1 p q) = Cert.Spec.relu0 (Cert.Spec.affine (oRows H U AG X Wh bh) Wf1 bf1 r q)
  rw [affine_row_congr (oRows h u ag x Wh bh) (oRows H U AG X Wh bh) Wf1 bf1 p r (oRows_row h u ag x H U AG X Wh bh p r e0 e1 e2 e3) q]

theorem outRows_row {n m : Nat} (h u ag x : Cert.Spec.Arr n 128) (H U AG X : Cert.Spec.Arr m 128) (Wh : Cert.Spec.Arr 128 128) (bh : Cert.Spec.Arr 1 128)
    (Wf1 : Cert.Spec.Arr 128 256) (bf1 : Cert.Spec.Arr 1 256) (Wf2 : Cert.Spec.Arr 256 128) (bf2 : Cert.Spec.Arr 1 128)
    (p : Fin n) (r : Fin m) (e0 : ∀ k : Fin 128, h (ix2 p k) = H (ix2 r k)) (e1 : ∀ k : Fin 128, u (ix2 p k) = U (ix2 r k))
    (e2 : ∀ k : Fin 128, ag (ix2 p k) = AG (ix2 r k)) (e3 : ∀ k : Fin 128, x (ix2 p k) = X (ix2 r k)) (q : Fin 128) :
    outRows h u ag x Wh bh Wf1 bf1 Wf2 bf2 (ix2 p q) = outRows H U AG X Wh bh Wf1 bf1 Wf2 bf2 (ix2 r q) :=
  affine_row_congr (fRows h u ag x Wh bh Wf1 bf1) (fRows H U AG X Wh bh Wf1 bf1) Wf2 bf2 p r
    (fRows_row h u ag x H U AG X Wh bh Wf1 bf1 p r e0 e1 e2 e3) q

/-! ## The body's arithmetic at an entry of the block

Every linear layer of the body is a product accumulated from zero plus the staged bias row broadcast over the block's
rows; the rounding to bf16 in front of each product is the identity on the extended reals. So at entry `(p, q)` a layer
is the specification's `affine` of its operands, on the block's 2000 rows. -/

/-- A `[1,128]` bias row broadcast over 2000 rows is read at `(p, q)` at its entry `(0, q)`. -/
theorem bias128_apply (b : Vec Ideal S1x128 .f32) (hc : S1x128.ShapeCasts S1x128) (hb : S1x128.Broadcasts S2000x128) (p : Fin 2000) (q : Fin 128) :
    broadcastTo S2000x128 (shapeCast S1x128 b hc) hb (ix2 p q) = b (ix2 (0 : Fin 1) q) := by
  rw [shapeCast_self]
  exact broadcastTo_1b_ab_apply b hb p q

/-- A `[1,256]` bias row broadcast over 2000 rows is read at `(p, q)` at its entry `(0, q)`. -/
theorem bias256_apply (b : Vec Ideal S1x256 .f32) (hc : S1x256.ShapeCasts S1x256) (hb : S1x256.Broadcasts S2000x256) (p : Fin 2000) (q : Fin 256) :
    broadcastTo S2000x256 (shapeCast S1x256 b hc) hb (ix2 p q) = b (ix2 (0 : Fin 1) q) := by
  rw [shapeCast_self]
  exact broadcastTo_1b_ab_apply b hb p q

/-- The update layer `a · Wh + bh` on the block. -/
theorem layerA_apply {φ₁ φ₂ : FTy} (a : FVec Ideal S2000x128 φ₁) (w : FVec Ideal S128x128 φ₂) (b : Vec Ideal S1x128 .f32)
    (hc : S1x128.ShapeCasts S1x128) (hb : S1x128.Broadcasts S2000x128) (p : Fin 2000) (q : Fin 128) :
    addf (matmul dot_S2000x128_S128x128_S2000x128_1_0_0_1_n_n none a w (constant (F := Ideal) S2000x128 .f32 0x00000000#32))
        (broadcastTo S2000x128 (shapeCast S1x128 b hc) hb) (ix2 p q) = Cert.Spec.affine a w b p q := by
  show matmul dot_S2000x128_S128x128_S2000x128_1_0_0_1_n_n none a w (constant (F := Ideal) S2000x128 .f32 0x00000000#32) (ix2 p q)
      + broadcastTo S2000x128 (shapeCast S1x128 b hc) hb (ix2 p q) = _
  rw [mmA_apply, bias128_apply]
  rfl

/-- The hidden layer `a · Wf1 + bf1` on the block. -/
theorem layerB_apply {φ₁ φ₂ : FTy} (a : FVec Ideal S2000x128 φ₁) (w : FVec Ideal S128x256 φ₂) (b : Vec Ideal S1x256 .f32)
    (hc : S1x256.ShapeCasts S1x256) (hb : S1x256.Broadcasts S2000x256) (p : Fin 2000) (q : Fin 256) :
    addf (matmul dot_S2000x128_S128x256_S2000x256_1_0_0_1_n_n none a w (constant (F := Ideal) S2000x256 .f32 0x00000000#32))
        (broadcastTo S2000x256 (shapeCast S1x256 b hc) hb) (ix2 p q) = Cert.Spec.affine a w b p q := by
  show matmul dot_S2000x128_S128x256_S2000x256_1_0_0_1_n_n none a w (constant (F := Ideal) S2000x256 .f32 0x00000000#32) (ix2 p q)
      + broadcastTo S2000x256 (shapeCast S1x256 b hc) hb (ix2 p q) = _
  rw [mmB_apply, bias256_apply]
  rfl

/-- The output layer `a · Wf2 + bf2` on the block. -/
theorem layerC_apply {φ₁ φ₂ : FTy} (a : FVec Ideal S2000x256 φ₁) (w : FVec Ideal S256x128 φ₂) (b : Vec Ideal S1x128 .f32)
    (hc : S1x128.ShapeCasts S1x128) (hb : S1x128.Broadcasts S2000x128) (p : Fin 2000) (q : Fin 128) :
    addf (matmul dot_S2000x256_S256x128_S2000x128_1_0_0_1_n_n none a w (constant (F := Ideal) S2000x128 .f32 0x00000000#32))
        (broadcastTo S2000x128 (shapeCast S1x128 b hc) hb) (ix2 p q) = Cert.Spec.affine a w b p q := by
  show matmul dot_S2000x256_S256x128_S2000x128_1_0_0_1_n_n none a w (constant (F := Ideal) S2000x128 .f32 0x00000000#32) (ix2 p q)
      + broadcastTo S2000x128 (shapeCast S1x128 b hc) hb (ix2 p q) = _
  rw [mmC_apply, bias128_apply]
  rfl

/-- THE BODY'S RESULT AT AN ENTRY. What the body stores at `(p, q)` of its output block is the last stage of the node
    update on the block's 2000 rows: the sum `h + v + aggr` (the shape casts are to the same shape), the update layer
    with its `max · 0` and the residual `+ x`, the hidden layer with its `max · 0`, and the output layer, whose bias is
    added by the body's tail. -/
theorem body_apply (x0 x1 x2 x3 : Vec Ideal S2000x128 .f32) (w4 : Vec Ideal S128x128 .f32) (b5 : Vec Ideal S1x128 .f32)
    (w6 : Vec Ideal S128x256 .f32) (b7 : Vec Ideal S1x256 .f32) (w8 : Vec Ideal S256x128 .f32) (b9 : Vec Ideal S1x128 .f32)
    (p : Fin 2000) (q : Fin 128) :
    k2_pay1 (F := Ideal) (k2_pay2 (F := Ideal) x0 x1 x2 w4 b5 x3 w6 b7 w8) b9 (ix2 p q)
      = outRows x0 x1 x2 x3 w4 b5 w6 b7 w8 b9 (ix2 p q) := by
  unfold k2_pay1 k2_pay2
  -- the output layer: its left operand is the hidden stage, entry by entry
  refine (layerC_apply _ _ b9 _ _ p q).trans ?_
  show Cert.Spec.affine _ _ b9 p q = Cert.Spec.affine (fRows x0 x1 x2 x3 w4 b5 w6 b7) w8 b9 p q
  refine affine_row_congr _ _ _ b9 p p (fun k => ?_) q
  -- the hidden layer at (p, k): its left operand is the stage o, entry by entry
  show max _ (Ideal.ofBits .f32 0x00000000#32) = Cert.Spec.relu0 (Cert.Spec.affine (oRows x0 x1 x2 x3 w4 b5) w6 b7 p k)
  refine congrArg (max · (Ideal.ofBits .f32 0x00000000#32)) ((layerB_apply _ _ b7 _ _ p k).trans ?_)
  refine affine_row_congr _ _ _ b7 p p (fun j => ?_) k
  -- the stage o at (p, j): the update layer of the three-term sum, then the residual
  show max _ (Ideal.ofBits .f32 0x00000000#32) + x3 (ix2 p j)
      = Cert.Spec.relu0 (Cert.Spec.affine (fun i => x0 i + x1 i + x2 i) w4 b5 p j) + x3 (ix2 p j)
  refine congrArg (· + x3 (ix2 p j)) (congrArg (max · (Ideal.ofBits .f32 0x00000000#32)) ((layerA_apply _ _ b5 _ _ p j).trans ?_))
  refine affine_row_congr _ _ _ b5 p p (fun i => ?_) j
  -- the three-term sum at (p, i)
  show shapeCast S2000x128 x0 _ (ix2 p i) + shapeCast S2000x128 x1 _ (ix2 p i) + shapeCast S2000x128 x2 _ (ix2 p i) = _
  rw [shapeCast_self, shapeCast_self, shapeCast_self]

/-! ## The blocks the body is called with

The grid has 50 points; point `t` stages rows `2000 t … 2000 t + 1999` of the four row-blocked inputs and writes the
same rows of the result; every weight and bias window has the one block `(0, 0)`, the whole array. A block's
coordinate on an axis is the block index times the block's extent plus the coordinate inside the block. -/

/-- The zero offsets of a whole-buffer access, however spelt. -/
theorem zero_offsets : (![0, 0] : Fin 2 → Nat) = fun _ => 0 := funext fun a => by fin_cases a <;> rfl

/-- The index maps of the row-blocked windows, decided over the grid: block `(t, 0)` at point `t`. -/
theorem idx_rows : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_10.index t (0 : Fin 2) = t.val ∧ win2_10.index t (1 : Fin 2) = 0) :=
  (by decide +kernel : ∀ t : Fin grid2.N, _)

/-- The index maps of the weight and bias windows, decided over the grid: block `(0, 0)` at every point. -/
theorem idx_whole : ∀ t : Fin cfg2.N,
    (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0) :=
  (by decide +kernel : ∀ t : Fin grid2.N, _)

/-! ### Entry `(p, k)` of a row block at point `t` is entry `(2000 t + p, k)` of the array -/

theorem emb_rows_0 (t : Fin cfg2.N) (p : Fin 2000) (k : Fin 128) (r : Fin 100000) (hr : r.val = t.val * 2000 + p.val) :
    ((cfg2.win 0).blk t).view.emb (ix2 p k) = ix2 r k := by
  obtain ⟨⟨a0, a1⟩, ⟨b0, b1⟩, ⟨c0, c1⟩, ⟨d0, d1⟩, ⟨o0, o1⟩⟩ := idx_rows t
  funext a; apply Fin.ext
  match a with
  | ⟨0, _⟩ => show win2_0.index t (0 : Fin 2) * 2000 + 1 * p.val = r.val; omega
  | ⟨1, _⟩ => show win2_0.index t (1 : Fin 2) * 128 + 1 * k.val = k.val; omega

theorem emb_rows_1 (t : Fin cfg2.N) (p : Fin 2000) (k : Fin 128) (r : Fin 100000) (hr : r.val = t.val * 2000 + p.val) :
    ((cfg2.win 1).blk t).view.emb (ix2 p k) = ix2 r k := by
  obtain ⟨⟨a0, a1⟩, ⟨b0, b1⟩, ⟨c0, c1⟩, ⟨d0, d1⟩, ⟨o0, o1⟩⟩ := idx_rows t
  funext a; apply Fin.ext
  match a with
  | ⟨0, _⟩ => show win2_1.index t (0 : Fin 2) * 2000 + 1 * p.val = r.val; omega
  | ⟨1, _⟩ => show win2_1.index t (1 : Fin 2) * 128 + 1 * k.val = k.val; omega

theorem emb_rows_2 (t : Fin cfg2.N) (p : Fin 2000) (k : Fin 128) (r : Fin 100000) (hr : r.val = t.val * 2000 + p.val) :
    ((cfg2.win 2).blk t).view.emb (ix2 p k) = ix2 r k := by
  obtain ⟨⟨a0, a1⟩, ⟨b0, b1⟩, ⟨c0, c1⟩, ⟨d0, d1⟩, ⟨o0, o1⟩⟩ := idx_rows t
  funext a; apply Fin.ext
  match a with
  | ⟨0, _⟩ => show win2_2.index t (0 : Fin 2) * 2000 + 1 * p.val = r.val; omega
  | ⟨1, _⟩ => show win2_2.index t (1 : Fin 2) * 128 + 1 * k.val = k.val; omega

theorem emb_rows_3 (t : Fin cfg2.N) (p : Fin 2000) (k : Fin 128) (r : Fin 100000) (hr : r.val = t.val * 2000 + p.val) :
    ((cfg2.win 3).blk t).view.emb (ix2 p k) = ix2 r k := by
  obtain ⟨⟨a0, a1⟩, ⟨b0, b1⟩, ⟨c0, c1⟩, ⟨d0, d1⟩, ⟨o0, o1⟩⟩ := idx_rows t
  funext a; apply Fin.ext
  match a with
  | ⟨0, _⟩ => show win2_3.index t (0 : Fin 2) * 2000 + 1 * p.val = r.val; omega
  | ⟨1, _⟩ => show win2_3.index t (1 : Fin 2) * 128 + 1 * k.val = k.val; omega

theorem emb_rows_10 (t : Fin cfg2.N) (p : Fin 2000) (k : Fin 128) (r : Fin 100000) (hr : r.val = t.val * 2000 + p.val) :
    ((cfg2.win 10).blk t).view.emb (ix2 p k) = ix2 r k := by
  obtain ⟨⟨a0, a1⟩, ⟨b0, b1⟩, ⟨c0, c1⟩, ⟨d0, d1⟩, ⟨o0, o1⟩⟩ := idx_rows t
  funext a; apply Fin.ext
  match a with
  | ⟨0, _⟩ => show win2_10.index t (0 : Fin 2) * 2000 + 1 * p.val = r.val; omega
  | ⟨1, _⟩ => show win2_10.index t (1 : Fin 2) * 128 + 1 * k.val = k.val; omega

/-! ### Entry `(j, k)` of a weight or bias block is entry `(j, k)` of the array -/

theorem emb_whole_4 (t : Fin cfg2.N) (j : Fin 128) (k : Fin 128) :
    ((cfg2.win 4).blk t).view.emb (ix2 j k) = ix2 j k := by
  obtain ⟨⟨a0, a1⟩, ⟨b0, b1⟩, ⟨c0, c1⟩, ⟨d0, d1⟩, ⟨e0, e1⟩, ⟨f0, f1⟩⟩ := idx_whole t
  funext a; apply Fin.ext
  match a with
  | ⟨0, _⟩ => show win2_4.index t (0 : Fin 2) * 128 + 1 * j.val = j.val; omega
  | ⟨1, _⟩ => show win2_4.index t (1 : Fin 2) * 128 + 1 * k.val = k.val; omega

theorem emb_whole_5 (t : Fin cfg2.N) (j : Fin 1) (k : Fin 128) :
    ((cfg2.win 5).blk t).view.emb (ix2 j k) = ix2 j k := by
  obtain ⟨⟨a0, a1⟩, ⟨b0, b1⟩, ⟨c0, c1⟩, ⟨d0, d1⟩, ⟨e0, e1⟩, ⟨f0, f1⟩⟩ := idx_whole t
  funext a; apply Fin.ext
  match a with
  | ⟨0, _⟩ => show win2_5.index t (0 : Fin 2) * 1 + 1 * j.val = j.val; omega
  | ⟨1, _⟩ => show win2_5.index t (1 : Fin 2) * 128 + 1 * k.val = k.val; omega

theorem emb_whole_6 (t : Fin cfg2.N) (j : Fin 128) (k : Fin 256) :
    ((cfg2.win 6).blk t).view.emb (ix2 j k) = ix2 j k := by
  obtain ⟨⟨a0, a1⟩, ⟨b0, b1⟩, ⟨c0, c1⟩, ⟨d0, d1⟩, ⟨e0, e1⟩, ⟨f0, f1⟩⟩ := idx_whole t
  funext a; apply Fin.ext
  match a with
  | ⟨0, _⟩ => show win2_6.index t (0 : Fin 2) * 128 + 1 * j.val = j.val; omega
  | ⟨1, _⟩ => show win2_6.index t (1 : Fin 2) * 256 + 1 * k.val = k.val; omega

theorem emb_whole_7 (t : Fin cfg2.N) (j : Fin 1) (k : Fin 256) :
    ((cfg2.win 7).blk t).view.emb (ix2 j k) = ix2 j k := by
  obtain ⟨⟨a0, a1⟩, ⟨b0, b1⟩, ⟨c0, c1⟩, ⟨d0, d1⟩, ⟨e0, e1⟩, ⟨f0, f1⟩⟩ := idx_whole t
  funext a; apply Fin.ext
  match a with
  | ⟨0, _⟩ => show win2_7.index t (0 : Fin 2) * 1 + 1 * j.val = j.val; omega
  | ⟨1, _⟩ => show win2_7.index t (1 : Fin 2) * 256 + 1 * k.val = k.val; omega

theorem emb_whole_8 (t : Fin cfg2.N) (j : Fin 256) (k : Fin 128) :
    ((cfg2.win 8).blk t).view.emb (ix2 j k) = ix2 j k := by
  obtain ⟨⟨a0, a1⟩, ⟨b0, b1⟩, ⟨c0, c1⟩, ⟨d0, d1⟩, ⟨e0, e1⟩, ⟨f0, f1⟩⟩ := idx_whole t
  funext a; apply Fin.ext
  match a with
  | ⟨0, _⟩ => show win2_8.index t (0 : Fin 2) * 256 + 1 * j.val = j.val; omega
  | ⟨1, _⟩ => show win2_8.index t (1 : Fin 2) * 128 + 1 * k.val = k.val; omega

theorem emb_whole_9 (t : Fin cfg2.N) (j : Fin 1) (k : Fin 128) :
    ((cfg2.win 9).blk t).view.emb (ix2 j k) = ix2 j k := by
  obtain ⟨⟨a0, a1⟩, ⟨b0, b1⟩, ⟨c0, c1⟩, ⟨d0, d1⟩, ⟨e0, e1⟩, ⟨f0, f1⟩⟩ := idx_whole t
  funext a; apply Fin.ext
  match a with
  | ⟨0, _⟩ => show win2_9.index t (0 : Fin 2) * 1 + 1 * j.val = j.val; omega
  | ⟨1, _⟩ => show win2_9.index t (1 : Fin 2) * 128 + 1 * k.val = k.val; omega

/-! ## The blocks as the region finds them -/

/-- Row `p` of the block of `h` at point `t` is row `2000 t + p` of the array. -/
theorem blk_h (c : Dev nD) (t : Fin cfg2.N) (p : Fin 2000) (r : Fin 100000) (hr : r.val = t.val * 2000 + p.val) (k : Fin 128) :
    iblk2 (F := Ideal) V c 0 t (ix2 p k) = V c main_v3_0 (ix2 r k) :=
  congrArg (V c main_v3_0) (emb_rows_0 t p k r hr)

/-- Row `p` of the block of `v` at point `t` is row `2000 t + p` of the array. -/
theorem blk_v (c : Dev nD) (t : Fin cfg2.N) (p : Fin 2000) (r : Fin 100000) (hr : r.val = t.val * 2000 + p.val) (k : Fin 128) :
    iblk2 (F := Ideal) V c 1 t (ix2 p k) = V c main_v3_1 (ix2 r k) :=
  congrArg (V c main_v3_1) (emb_rows_1 t p k r hr)

/-- Row `p` of the block of `aggr` at point `t` is row `2000 t + p` of the array. -/
theorem blk_aggr (c : Dev nD) (t : Fin cfg2.N) (p : Fin 2000) (r : Fin 100000) (hr : r.val = t.val * 2000 + p.val) (k : Fin 128) :
    iblk2 (F := Ideal) V c 2 t (ix2 p k) = V c main_v14 (ix2 r k) :=
  congrArg (V c main_v14) (emb_rows_2 t p k r hr)

/-- Row `p` of the block of `x` at point `t` is row `2000 t + p` of the array. -/
theorem blk_x (c : Dev nD) (t : Fin cfg2.N) (p : Fin 2000) (r : Fin 100000) (hr : r.val = t.val * 2000 + p.val) (k : Fin 128) :
    iblk2 (F := Ideal) V c 3 t (ix2 p k) = V c main_arg0 (ix2 r k) :=
  congrArg (V c main_arg0) (emb_rows_3 t p k r hr)

/-- The one block of `Wh` is the whole array. -/
theorem blk_Wh (c : Dev nD) (t : Fin cfg2.N) : iblk2 (F := Ideal) V c 4 t = V c main_arg15 := by
  funext j
  obtain ⟨a, b, rfl⟩ : ∃ (a : Fin 128) (b : Fin 128), j = ix2 a b := ⟨j 0, j 1, eq_ix2 j⟩
  exact congrArg (V c main_arg15) (emb_whole_4 t a b)

/-- The one block of `bh` is the whole array. -/
theorem blk_bh (c : Dev nD) (t : Fin cfg2.N) : iblk2 (F := Ideal) V c 5 t = V c main_v15 := by
  funext j
  obtain ⟨a, b, rfl⟩ : ∃ (a : Fin 1) (b : Fin 128), j = ix2 a b := ⟨j 0, j 1, eq_ix2 j⟩
  exact congrArg (V c main_v15) (emb_whole_5 t a b)

/-- The one block of `Wf1` is the whole array. -/
theorem blk_Wf1 (c : Dev nD) (t : Fin cfg2.N) : iblk2 (F := Ideal) V c 6 t = V c main_arg17 := by
  funext j
  obtain ⟨a, b, rfl⟩ : ∃ (a : Fin 128) (b : Fin 256), j = ix2 a b := ⟨j 0, j 1, eq_ix2 j⟩
  exact congrArg (V c main_arg17) (emb_whole_6 t a b)

/-- The one block of `bf1` is the whole array. -/
theorem blk_bf1 (c : Dev nD) (t : Fin cfg2.N) : iblk2 (F := Ideal) V c 7 t = V c main_v16 := by
  funext j
  obtain ⟨a, b, rfl⟩ : ∃ (a : Fin 1) (b : Fin 256), j = ix2 a b := ⟨j 0, j 1, eq_ix2 j⟩
  exact congrArg (V c main_v16) (emb_whole_7 t a b)

/-- The one block of `Wf2` is the whole array. -/
theorem blk_Wf2 (c : Dev nD) (t : Fin cfg2.N) : iblk2 (F := Ideal) V c 8 t = V c main_arg19 := by
  funext j
  obtain ⟨a, b, rfl⟩ : ∃ (a : Fin 256) (b : Fin 128), j = ix2 a b := ⟨j 0, j 1, eq_ix2 j⟩
  exact congrArg (V c main_arg19) (emb_whole_8 t a b)

/-- The one block of `bf2` is the whole array. -/
theorem blk_bf2 (c : Dev nD) (t : Fin cfg2.N) : iblk2 (F := Ideal) V c 9 t = V c main_v17 := by
  funext j
  obtain ⟨a, b, rfl⟩ : ∃ (a : Fin 1) (b : Fin 128), j = ix2 a b := ⟨j 0, j 1, eq_ix2 j⟩
  exact congrArg (V c main_v17) (emb_whole_9 t a b)

/-! ## What a grid point writes back, and the whole array -/

/-- The last stage on a block is the last stage on the array at the block's rows, when the block's rows are the
    array's rows and the weights and biases are the array's. -/
theorem outRows_blk {n m : Nat} (h u ag x : Cert.Spec.Arr n 128) (H U AG X : Cert.Spec.Arr m 128)
    (w4 W4 : Cert.Spec.Arr 128 128) (b5 B5 : Cert.Spec.Arr 1 128) (w6 W6 : Cert.Spec.Arr 128 256) (b7 B7 : Cert.Spec.Arr 1 256)
    (w8 W8 : Cert.Spec.Arr 256 128) (b9 B9 : Cert.Spec.Arr 1 128) (p : Fin n) (r : Fin m)
    (e0 : ∀ k : Fin 128, h (ix2 p k) = H (ix2 r k)) (e1 : ∀ k : Fin 128, u (ix2 p k) = U (ix2 r k))
    (e2 : ∀ k : Fin 128, ag (ix2 p k) = AG (ix2 r k)) (e3 : ∀ k : Fin 128, x (ix2 p k) = X (ix2 r k))
    (ew4 : w4 = W4) (eb5 : b5 = B5) (ew6 : w6 = W6) (eb7 : b7 = B7) (ew8 : w8 = W8) (eb9 : b9 = B9) (q : Fin 128) :
    outRows h u ag x w4 b5 w6 b7 w8 b9 (ix2 p q) = outRows H U AG X W4 B5 W6 B7 W8 B9 (ix2 r q) := by
  subst ew4 eb5 ew6 eb7 ew8 eb9
  exact outRows_row h u ag x H U AG X w4 b5 w6 b7 w8 b9 p r e0 e1 e2 e3 q

/-- WHAT POINT `t` WRITES BACK is block `t` of the last stage of the arrays the region finds: the body's one store
    fills the output block with its result, entry `(p, q)` of which is the last stage on the staged rows, and those
    are rows `2000 t + p` of the arrays. -/
theorem flushed_out (c : Dev nD) (t : Fin cfg2.N) :
    (dat2 (F := Ideal) V c).flushed 10 t = ((cfg2.win 10).blk t).view.read (Elt Ideal)
      (outRows (V c main_v3_0) (V c main_v3_1) (V c main_v14) (V c main_arg0) (V c main_arg15) (V c main_v15)
        (V c main_arg17) (V c main_v16) (V c main_arg19) (V c main_v17)) := by
  show (cfg2.win 10).cut (grid2.coords t) ((dat2 V c).after 10 t) = _
  rw [after2_10]
  unfold out2_10
  rw [View.canon_unit_zero zero_offsets]
  simp only [View.ld_unit_zero (S := S2000x128) zero_offsets, View.ld_unit_zero (S := S128x128) zero_offsets,
    View.ld_unit_zero (S := S1x128) zero_offsets, View.ld_unit_zero (S := S128x256) zero_offsets,
    View.ld_unit_zero (S := S1x256) zero_offsets, View.ld_unit_zero (S := S256x128) zero_offsets]
  funext j
  obtain ⟨p, q, rfl⟩ : ∃ (p : Fin 2000) (q : Fin 128), j = ix2 p q := ⟨j 0, j 1, eq_ix2 j⟩
  have hp : p.val < 2000 := p.isLt
  have ht : t.val < 50 := t.isLt
  obtain ⟨r, hr⟩ : ∃ r : Fin 100000, r.val = t.val * 2000 + p.val := ⟨⟨t.val * 2000 + p.val, by omega⟩, rfl⟩
  show k2_pay1 (F := Ideal) (k2_pay2 (F := Ideal) (iblk2 V c 0 t) (iblk2 V c 1 t) (iblk2 V c 2 t) (iblk2 V c 4 t) (iblk2 V c 5 t)
        (iblk2 V c 3 t) (iblk2 V c 6 t) (iblk2 V c 7 t) (iblk2 V c 8 t)) (iblk2 V c 9 t) (ix2 p q)
      = outRows (V c main_v3_0) (V c main_v3_1) (V c main_v14) (V c main_arg0) (V c main_arg15) (V c main_v15)
          (V c main_arg17) (V c main_v16) (V c main_arg19) (V c main_v17) (((cfg2.win 10).blk t).view.emb (ix2 p q))
  rw [emb_rows_10 t p q r hr]
  refine (body_apply (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t) p q).trans ?_
  exact outRows_blk (iblk2 V c 0 t) (iblk2 V c 1 t) (iblk2 V c 2 t) (iblk2 V c 3 t)
    (V c main_v3_0) (V c main_v3_1) (V c main_v14) (V c main_arg0)
    (iblk2 V c 4 t) (V c main_arg15) (iblk2 V c 5 t) (V c main_v15) (iblk2 V c 6 t) (V c main_arg17)
    (iblk2 V c 7 t) (V c main_v16) (iblk2 V c 8 t) (V c main_arg19) (iblk2 V c 9 t) (V c main_v17) p r
    (blk_h V c t p r hr) (blk_v V c t p r hr) (blk_aggr V c t p r hr) (blk_x V c t p r hr)
    (blk_Wh V c t) (blk_bh V c t) (blk_Wf1 V c t) (blk_bf1 V c t) (blk_Wf2 V c t) (blk_bf2 V c t) q

/-- An index of the result array is in point `t`'s block iff each coordinate is in the block's range on its axis. -/
theorem mem_blk_out (t : Fin cfg2.N) (i : S100000x128.Idx) :
    i ∈ ((cfg2.win 10).blk t).view.set ↔ ∀ a : Fin 2, win2_10.index t a * S2000x128.size a ≤ (i a).val ∧ (i a).val < win2_10.index t a * S2000x128.size a + S2000x128.size a := by
  show i ∈ ((View.whole main_v18).slice (win2_10.rect t)).set ↔ _
  rw [View.set_slice_whole, Rect.mem_set_unit]
  exact Iff.rfl

/-- THE OUTPUT BLOCKS TILE THE ARRAY: row `r` lies in the block of point `r / 2000`, and every point writes back. -/
theorem cover_out (i : S100000x128.Idx) :
    ∃ t : Fin cfg2.N, (cfg2.win 10).flush t = true ∧ i ∈ ((cfg2.win 10).blk t).view.set := by
  have hi0 : (i 0).val < 100000 := (i 0).isLt
  have hi1 : (i 1).val < 128 := (i 1).isLt
  obtain ⟨t, ht⟩ : ∃ t : Fin cfg2.N, t.val = (i 0).val / 2000 := ⟨⟨(i 0).val / 2000, by show (i 0).val / 2000 < 50; omega⟩, rfl⟩
  obtain ⟨-, -, -, -, o0, o1⟩ := idx_rows t
  refine ⟨t, flush2_10 t, ?_⟩
  rw [mem_blk_out]
  intro a
  match a with
  | ⟨0, _⟩ => show win2_10.index t (0 : Fin 2) * 2000 ≤ (i 0).val ∧ (i 0).val < win2_10.index t (0 : Fin 2) * 2000 + 2000; omega
  | ⟨1, _⟩ => show win2_10.index t (1 : Fin 2) * 128 ≤ (i 1).val ∧ (i 1).val < win2_10.index t (1 : Fin 2) * 128 + 128; omega

/-- THE RESULT ARRAY after the region has run over its 50 points is the specification's `out` of the arrays the region
    found: every point writes back block `t` of it, and the blocks tile the array. -/
theorem arr_out (c : Dev nD) : (dat2 (F := Ideal) V c).arrAt 10 cfg2.N
    = Cert.Spec.outArr (V c main_v3_0) (V c main_v3_1) (V c main_v14) (V c main_arg0) (V c main_arg15) (V c main_v15)
        (V c main_arg17) (V c main_v16) (V c main_arg19) (V c main_v17) := by
  rw [outArr_eq_outRows]
  exact (dat2 (F := Ideal) V c).arrAt_eq_of_cover 10 _ (fun t _ => flushed_out V c t) cover_out

end Cert.KernelIdeal.Region2

end
-- ==== Proof.Chain.lean ====
/-
  The kernel program between its three regions: what each region finds in its windows' arrays and what the program returns,
  as terms of the launch memory `m`. The regions' whole-array values are the specification's (the three region modules); the
  host operations between them are the bias reshapes `[M] → [1, M]`, the row gather `take`, and the scatter-add that sums
  the messages per destination node. An argument array is written by nothing, so it is found unchanged wherever it is read.
-/
import proofs.«427256_j19507741458639_1_alg».proof.Proof.Gen.KernelIdeal.Frame
import proofs.«427256_j19507741458639_1_alg».proof.Proof.Spec
import proofs.«427256_j19507741458639_1_alg».proof.Proof.Take
import proofs.«427256_j19507741458639_1_alg».proof.Proof.LibHostBits
import proofs.«427256_j19507741458639_1_alg».proof.Proof.Region0
import proofs.«427256_j19507741458639_1_alg».proof.Proof.Region1
import proofs.«427256_j19507741458639_1_alg».proof.Proof.Region2
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Chain

open Cert.KernelIdeal Cert.KernelIdeal.Gen Cert.KernelIdeal.Take Idealize.ShloMosaic Idealize.ShloMosaic.TcCoe Idealize.SL.Sem
open Idealize.ShloMosaic.StableHlo
open Idealize.ShloMosaic.ValueIdx

variable (m : (ℓ : Loc nD τ sig) → Buf (Elt Ideal) ℓ) (ρ : Dev nD → PrngReg)

/-- No operation of a host stretch writes the buffer at hand: each operation's one result buffer is another. -/
macro "not_written" ops:ident : tactic => `(tactic| (
  refine List.forall_iff_forall_mem.mp ?_
  simp only [$ops:ident, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

/-! ## A rank-1 bias reshaped to one row -/

theorem cast_row128 (b : FVec Ideal S128 .f32) : shapeCast S1x128 b shapeCasts_S128_S1x128 = Cert.Spec.row1 b := by
  funext j
  obtain ⟨u, i, rfl⟩ : ∃ (u : Fin 1) (i : Fin 128), j = ix2 u i := ⟨j 0, j 1, eq_ix2 j⟩
  exact shapeCast_a_1a_apply b _ u i

theorem cast_row256 (b : FVec Ideal S256 .f32) : shapeCast S1x256 b shapeCasts_S256_S1x256 = Cert.Spec.row1 b := by
  funext j
  obtain ⟨u, i, rfl⟩ : ∃ (u : Fin 1) (i : Fin 256), j = ix2 u i := ⟨j 0, j 1, eq_ix2 j⟩
  exact shapeCast_a_1a_apply b _ u i

/-! ## A buffer that a stretch of host operations does not write -/

theorem w1_keep (c : Dev nD) (b : Ref sig .tc)
    (h : ∀ op ∈ (hostOps0 : List (HloOp τ sig (Elt Ideal))), Proc.devRef .tc b ∉ op.writes) :
    W1 m ρ c (Proc.devRef .tc b) = m ((c : Thread nD τ).loc b) :=
  StableHlo.after_of_forall_not_mem (b := Proc.devRef .tc b) _ _ h

theorem w5_keep (c : Dev nD) (b : Ref sig .tc)
    (h1 : ∀ op ∈ (hostOps1 : List (HloOp τ sig (Elt Ideal))), Proc.devRef .tc b ∉ op.writes)
    (h2 : ∀ op ∈ (hostOps1_1 : List (HloOp τ sig (Elt Ideal))), Proc.devRef .tc b ∉ op.writes)
    (h3 : ∀ op ∈ (hostOps1_2 : List (HloOp τ sig (Elt Ideal))), Proc.devRef .tc b ∉ op.writes) :
    W5 m ρ c (Proc.devRef .tc b) = W2 m ρ c (Proc.devRef .tc b) :=
  (StableHlo.after_of_forall_not_mem (b := Proc.devRef .tc b) _ _ h3).trans
    ((StableHlo.after_of_forall_not_mem (b := Proc.devRef .tc b) _ _ h2).trans
      (StableHlo.after_of_forall_not_mem (b := Proc.devRef .tc b) _ _ h1))

theorem w7_keep (c : Dev nD) (b : Ref sig .tc)
    (h : ∀ op ∈ (hostOps2 : List (HloOp τ sig (Elt Ideal))), Proc.devRef .tc b ∉ op.writes) :
    W7 m ρ c (Proc.devRef .tc b) = W6 m ρ c (Proc.devRef .tc b) :=
  StableHlo.after_of_forall_not_mem (b := Proc.devRef .tc b) _ _ h

/-- An argument that is no window of region 0, at region 0's exit. -/
theorem w2_arg (c : Dev nD) (b : Ref sig .tc) (hw : ∀ w, Pipeline.arrRef spec0 w ≠ b)
    (h : ∀ op ∈ (hostOps0 : List (HloOp τ sig (Elt Ideal))), Proc.devRef .tc b ∉ op.writes) :
    W2 m ρ c (Proc.devRef .tc b) = m ((c : Thread nD τ).loc b) :=
  (W2_of_ne m ρ c b hw).trans (w1_keep m ρ c b h)

/-- An argument that is no window of regions 0 and 1 and that no host operation before region 1 writes, at region 1's entry. -/
theorem w5_arg (c : Dev nD) (b : Ref sig .tc) (hw : ∀ w, Pipeline.arrRef spec0 w ≠ b)
    (h0 : ∀ op ∈ (hostOps0 : List (HloOp τ sig (Elt Ideal))), Proc.devRef .tc b ∉ op.writes)
    (h1 : ∀ op ∈ (hostOps1 : List (HloOp τ sig (Elt Ideal))), Proc.devRef .tc b ∉ op.writes)
    (h2 : ∀ op ∈ (hostOps1_1 : List (HloOp τ sig (Elt Ideal))), Proc.devRef .tc b ∉ op.writes)
    (h3 : ∀ op ∈ (hostOps1_2 : List (HloOp τ sig (Elt Ideal))), Proc.devRef .tc b ∉ op.writes) :
    W5 m ρ c (Proc.devRef .tc b) = m ((c : Thread nD τ).loc b) :=
  (w5_keep m ρ c b h1 h2 h3).trans (w2_arg m ρ c b hw h0)

/-- The same up to region 2's entry, for an argument that is no window of region 1 either. -/
theorem w7_arg (c : Dev nD) (b : Ref sig .tc) (hw0 : ∀ w, Pipeline.arrRef spec0 w ≠ b) (hw1 : ∀ w, Pipeline.arrRef spec1 w ≠ b)
    (h0 : ∀ op ∈ (hostOps0 : List (HloOp τ sig (Elt Ideal))), Proc.devRef .tc b ∉ op.writes)
    (h1 : ∀ op ∈ (hostOps1 : List (HloOp τ sig (Elt Ideal))), Proc.devRef .tc b ∉ op.writes)
    (h2 : ∀ op ∈ (hostOps1_1 : List (HloOp τ sig (Elt Ideal))), Proc.devRef .tc b ∉ op.writes)
    (h3 : ∀ op ∈ (hostOps1_2 : List (HloOp τ sig (Elt Ideal))), Proc.devRef .tc b ∉ op.writes)
    (h4 : ∀ op ∈ (hostOps2 : List (HloOp τ sig (Elt Ideal))), Proc.devRef .tc b ∉ op.writes) :
    W7 m ρ c (Proc.devRef .tc b) = m ((c : Thread nD τ).loc b) :=
  (w7_keep m ρ c b h4).trans ((W6_of_ne m ρ c b hw1).trans (w5_arg m ρ c b hw0 h0 h1 h2 h3))

/-! ## Region 0: what it finds, what it leaves -/

theorem v1_arg0 (c : Dev nD) : V1 m ρ c main_arg0 = m ((c : Thread nD τ).loc main_arg0) := w1_keep m ρ c main_arg0 (by not_written hostOps0)
theorem v1_arg1 (c : Dev nD) : V1 m ρ c main_arg1 = m ((c : Thread nD τ).loc main_arg1) := w1_keep m ρ c main_arg1 (by not_written hostOps0)
theorem v1_arg5 (c : Dev nD) : V1 m ρ c main_arg5 = m ((c : Thread nD τ).loc main_arg5) := w1_keep m ρ c main_arg5 (by not_written hostOps0)
theorem v1_arg7 (c : Dev nD) : V1 m ρ c main_arg7 = m ((c : Thread nD τ).loc main_arg7) := w1_keep m ρ c main_arg7 (by not_written hostOps0)
theorem v1_arg9 (c : Dev nD) : V1 m ρ c main_arg9 = m ((c : Thread nD τ).loc main_arg9) := w1_keep m ρ c main_arg9 (by not_written hostOps0)

theorem v1_bq (c : Dev nD) : V1 m ρ c main_v0 = Cert.Spec.row1 (m ((c : Thread nD τ).loc main_arg6)) := by
  have e : V1 m ρ c main_v0 = shapeCast S1x128 (m ((c : Thread nD τ).loc main_arg6)) shapeCasts_S128_S1x128 := by
    show StableHlo.after hostOps0 (W0 m ρ c) (Proc.devRef .tc main_v0) = _
    after_results
    rfl
  exact e.trans (cast_row128 _)
theorem v1_bk (c : Dev nD) : V1 m ρ c main_v1 = Cert.Spec.row1 (m ((c : Thread nD τ).loc main_arg8)) := by
  have e : V1 m ρ c main_v1 = shapeCast S1x128 (m ((c : Thread nD τ).loc main_arg8)) shapeCasts_S128_S1x128 := by
    show StableHlo.after hostOps0 (W0 m ρ c) (Proc.devRef .tc main_v1) = _
    after_results
    rfl
  exact e.trans (cast_row128 _)
theorem v1_bv (c : Dev nD) : V1 m ρ c main_v2 = Cert.Spec.row1 (m ((c : Thread nD τ).loc main_arg10)) := by
  have e : V1 m ρ c main_v2 = shapeCast S1x128 (m ((c : Thread nD τ).loc main_arg10)) shapeCasts_S128_S1x128 := by
    show StableHlo.after hostOps0 (W0 m ρ c) (Proc.devRef .tc main_v2) = _
    after_results
    rfl
  exact e.trans (cast_row128 _)

/-- `h` as the launch memory gives it. -/
def hK (c : Dev nD) : Cert.Spec.Arr 100000 128 :=
  Cert.Spec.hArr (m ((c : Thread nD τ).loc main_arg0)) (m ((c : Thread nD τ).loc main_arg1)) (m ((c : Thread nD τ).loc main_arg5)) (Cert.Spec.row1 (m ((c : Thread nD τ).loc main_arg6))) (m ((c : Thread nD τ).loc main_arg7)) (Cert.Spec.row1 (m ((c : Thread nD τ).loc main_arg8)))
/-- `v` as the launch memory gives it. -/
def vK (c : Dev nD) : Cert.Spec.Arr 100000 128 :=
  Cert.Spec.vArr (m ((c : Thread nD τ).loc main_arg1)) (m ((c : Thread nD τ).loc main_arg9)) (Cert.Spec.row1 (m ((c : Thread nD τ).loc main_arg10)))

theorem w2_h (c : Dev nD) : W2 m ρ c (Proc.devRef .tc main_v3_0) = hK m c := by
  refine (W2_arr m ρ c 8).trans ((Cert.KernelIdeal.Region0.arr_h (V1 m ρ) c).trans ?_)
  rw [v1_arg0, v1_arg1, v1_arg5, v1_bq, v1_arg7, v1_bk]
  rfl

theorem w2_v (c : Dev nD) : W2 m ρ c (Proc.devRef .tc main_v3_1) = vK m c := by
  refine (W2_arr m ρ c 9).trans ((Cert.KernelIdeal.Region0.arr_v (V1 m ρ) c).trans ?_)
  rw [v1_arg1, v1_arg9, v1_bv]
  rfl

/-! ## Region 1: what it finds, what it leaves -/

theorem w2_arg4 (c : Dev nD) : W2 m ρ c (Proc.devRef .tc main_arg4) = m ((c : Thread nD τ).loc main_arg4) :=
  w2_arg m ρ c main_arg4 (by decide) (by not_written hostOps0)

/-- At a literal buffer whose type is the value's, moving contents to or from the buffer's own type changes nothing. -/
theorem ofBuf_srcIdx (p1 p2 p3) (u : (main_v5 : Ref sig .tc).ty.Contents (Elt Ideal)) :
    (StableHlo.TRef.of (T := ⟨S640000, .i32⟩) main_v5 p1 p2 p3).ofBuf u = u := rfl
theorem ofBuf_h (p1 p2 p3) (u : (main_v3_0 : Ref sig .tc).ty.Contents (Elt Ideal)) :
    (StableHlo.TRef.of (T := ⟨S100000x128, .f32⟩) main_v3_0 p1 p2 p3).ofBuf u = u := rfl
theorem toBuf_src (p1 p2 p3) (u : (⟨S640000x128, .f32⟩ : BufTy).Contents (Elt Ideal)) :
    (StableHlo.TRef.of (T := ⟨S640000x128, .f32⟩) main_v6 p1 p2 p3).toBuf u = u := rfl

set_option maxHeartbeats 4000000 in
/-- The gathered source rows: `take` of `h` at row 0 of the edge list. -/
theorem v5_src (c : Dev nD) : V5 m ρ c main_v6 = take (hK m c) (m ((c : Thread nD τ).loc main_arg4)) := by
  have e : W5 m ρ c (Proc.devRef .tc main_v6)
      = take (W2 m ρ c (Proc.devRef .tc main_v3_0)) (W2 m ρ c (Proc.devRef .tc main_arg4)) := by
    dsimp only [W5, W4, W3]
    after_results
    simp only [Cert.LibHostBits.ofBuf_toBuf, ofBuf_srcIdx, ofBuf_h, toBuf_src]
    generalize W2 m ρ c (Proc.devRef .tc main_v3_0) = H
    generalize W2 m ρ c (Proc.devRef .tc main_arg4) = A4
    unfold take inb rowOk bothCol idxW idxE
    rfl
  rw [w2_h, w2_arg4] at e
  exact e

theorem v5_arg2 (c : Dev nD) : V5 m ρ c main_arg2 = m ((c : Thread nD τ).loc main_arg2) :=
  w5_arg m ρ c main_arg2 (by decide) (by not_written hostOps0) (by not_written hostOps1) (by not_written hostOps1_1) (by not_written hostOps1_2)
theorem v5_arg3 (c : Dev nD) : V5 m ρ c main_arg3 = m ((c : Thread nD τ).loc main_arg3) :=
  w5_arg m ρ c main_arg3 (by decide) (by not_written hostOps0) (by not_written hostOps1) (by not_written hostOps1_1) (by not_written hostOps1_2)
theorem v5_arg11 (c : Dev nD) : V5 m ρ c main_arg11 = m ((c : Thread nD τ).loc main_arg11) :=
  w5_arg m ρ c main_arg11 (by decide) (by not_written hostOps0) (by not_written hostOps1) (by not_written hostOps1_1) (by not_written hostOps1_2)
theorem v5_arg13 (c : Dev nD) : V5 m ρ c main_arg13 = m ((c : Thread nD τ).loc main_arg13) :=
  w5_arg m ρ c main_arg13 (by decide) (by not_written hostOps0) (by not_written hostOps1) (by not_written hostOps1_1) (by not_written hostOps1_2)
theorem v5_be1 (c : Dev nD) : V5 m ρ c main_v7 = Cert.Spec.row1 (m ((c : Thread nD τ).loc main_arg12)) := by
  have e : W5 m ρ c (Proc.devRef .tc main_v7) = shapeCast S1x128 (W2 m ρ c (Proc.devRef .tc main_arg12)) shapeCasts_S128_S1x128 := by
    dsimp only [W5, W4, W3]
    after_results
    rfl
  rw [w2_arg m ρ c main_arg12 (by decide) (by not_written hostOps0)] at e
  exact e.trans (cast_row128 _)
theorem v5_be2 (c : Dev nD) : V5 m ρ c main_v8 = Cert.Spec.row1 (m ((c : Thread nD τ).loc main_arg14)) := by
  have e : W5 m ρ c (Proc.devRef .tc main_v8) = shapeCast S1x128 (W2 m ρ c (Proc.devRef .tc main_arg14)) shapeCasts_S128_S1x128 := by
    dsimp only [W5, W4, W3]
    after_results
    rfl
  rw [w2_arg m ρ c main_arg14 (by decide) (by not_written hostOps0)] at e
  exact e.trans (cast_row128 _)

/-- The updated edge features as the launch memory gives them. -/
def eK (c : Dev nD) : Cert.Spec.Arr 640000 128 :=
  Cert.Spec.eArr (m ((c : Thread nD τ).loc main_arg2)) (m ((c : Thread nD τ).loc main_arg3)) (m ((c : Thread nD τ).loc main_arg11)) (Cert.Spec.row1 (m ((c : Thread nD τ).loc main_arg12))) (m ((c : Thread nD τ).loc main_arg13)) (Cert.Spec.row1 (m ((c : Thread nD τ).loc main_arg14)))
/-- The messages as the launch memory gives them. -/
def msgK (c : Dev nD) : Cert.Spec.Arr 640000 128 :=
  Cert.Spec.msgArr (take (hK m c) (m ((c : Thread nD τ).loc main_arg4))) (m ((c : Thread nD τ).loc main_arg2)) (m ((c : Thread nD τ).loc main_arg3)) (m ((c : Thread nD τ).loc main_arg11)) (Cert.Spec.row1 (m ((c : Thread nD τ).loc main_arg12))) (m ((c : Thread nD τ).loc main_arg13)) (Cert.Spec.row1 (m ((c : Thread nD τ).loc main_arg14)))

theorem w6_e (c : Dev nD) : W6 m ρ c (Proc.devRef .tc main_v9_0) = eK m c := by
  refine (W6_arr m ρ c 7).trans ((Cert.KernelIdeal.Region1.arr_e (V5 m ρ) c).trans ?_)
  rw [v5_arg2, v5_arg3, v5_arg11, v5_be1, v5_arg13, v5_be2]
  rfl

theorem w6_msg (c : Dev nD) : W6 m ρ c (Proc.devRef .tc main_v9_1) = msgK m c := by
  refine (W6_arr m ρ c 8).trans ((Cert.KernelIdeal.Region1.arr_msg (V5 m ρ) c).trans ?_)
  rw [v5_src, v5_arg2, v5_arg3, v5_arg11, v5_be1, v5_arg13, v5_be2]
  rfl

/-! ## Region 2: what it finds, what it leaves -/

/-- An argument that is no window of regions 0 and 1, at region 1's exit. -/
theorem w6_arg (c : Dev nD) (b : Ref sig .tc) (hw0 : ∀ w, Pipeline.arrRef spec0 w ≠ b) (hw1 : ∀ w, Pipeline.arrRef spec1 w ≠ b)
    (h0 : ∀ op ∈ (hostOps0 : List (HloOp τ sig (Elt Ideal))), Proc.devRef .tc b ∉ op.writes)
    (h1 : ∀ op ∈ (hostOps1 : List (HloOp τ sig (Elt Ideal))), Proc.devRef .tc b ∉ op.writes)
    (h2 : ∀ op ∈ (hostOps1_1 : List (HloOp τ sig (Elt Ideal))), Proc.devRef .tc b ∉ op.writes)
    (h3 : ∀ op ∈ (hostOps1_2 : List (HloOp τ sig (Elt Ideal))), Proc.devRef .tc b ∉ op.writes) :
    W6 m ρ c (Proc.devRef .tc b) = m ((c : Thread nD τ).loc b) :=
  (W6_of_ne m ρ c b hw1).trans (w5_arg m ρ c b hw0 h0 h1 h2 h3)

theorem v7_h (c : Dev nD) : V7 m ρ c main_v3_0 = hK m c :=
  (w7_keep m ρ c main_v3_0 (by not_written hostOps2)).trans ((W6_of_ne m ρ c main_v3_0 (by decide)).trans
    ((w5_keep m ρ c main_v3_0 (by not_written hostOps1) (by not_written hostOps1_1) (by not_written hostOps1_2)).trans (w2_h m ρ c)))

theorem v7_v (c : Dev nD) : V7 m ρ c main_v3_1 = vK m c :=
  (w7_keep m ρ c main_v3_1 (by not_written hostOps2)).trans ((W6_of_ne m ρ c main_v3_1 (by decide)).trans
    ((w5_keep m ρ c main_v3_1 (by not_written hostOps1) (by not_written hostOps1_1) (by not_written hostOps1_2)).trans (w2_v m ρ c)))

theorem v7_x (c : Dev nD) : V7 m ρ c main_arg0 = m ((c : Thread nD τ).loc main_arg0) :=
  ((W8_arr m ρ c 3).trans (((dat2 (V7 m ρ) c).arrAt_in 3 rfl _).trans (A_eq2 (V7 m ρ) c 3))).symm.trans (W8_main_arg0 m ρ c)
theorem v7_Wh (c : Dev nD) : V7 m ρ c main_arg15 = m ((c : Thread nD τ).loc main_arg15) :=
  ((W8_arr m ρ c 4).trans (((dat2 (V7 m ρ) c).arrAt_in 4 rfl _).trans (A_eq2 (V7 m ρ) c 4))).symm.trans (W8_main_arg15 m ρ c)
theorem v7_Wf1 (c : Dev nD) : V7 m ρ c main_arg17 = m ((c : Thread nD τ).loc main_arg17) :=
  ((W8_arr m ρ c 6).trans (((dat2 (V7 m ρ) c).arrAt_in 6 rfl _).trans (A_eq2 (V7 m ρ) c 6))).symm.trans (W8_main_arg17 m ρ c)
theorem v7_Wf2 (c : Dev nD) : V7 m ρ c main_arg19 = m ((c : Thread nD τ).loc main_arg19) :=
  ((W8_arr m ρ c 8).trans (((dat2 (V7 m ρ) c).arrAt_in 8 rfl _).trans (A_eq2 (V7 m ρ) c 8))).symm.trans (W8_main_arg19 m ρ c)
theorem v7_bh (c : Dev nD) : V7 m ρ c main_v15 = Cert.Spec.row1 (m ((c : Thread nD τ).loc main_arg16)) := by
  have e : W7 m ρ c (Proc.devRef .tc main_v15) = shapeCast S1x128 (W6 m ρ c (Proc.devRef .tc main_arg16)) shapeCasts_S128_S1x128 := by
    show StableHlo.after hostOps2 (W6 m ρ c) (Proc.devRef .tc main_v15) = _
    after_results
    rfl
  rw [w6_arg m ρ c main_arg16 (by decide) (by decide) (by not_written hostOps0) (by not_written hostOps1) (by not_written hostOps1_1) (by not_written hostOps1_2)] at e
  exact e.trans (cast_row128 _)
theorem v7_bf1 (c : Dev nD) : V7 m ρ c main_v16 = Cert.Spec.row1 (m ((c : Thread nD τ).loc main_arg18)) := by
  have e : W7 m ρ c (Proc.devRef .tc main_v16) = shapeCast S1x256 (W6 m ρ c (Proc.devRef .tc main_arg18)) shapeCasts_S256_S1x256 := by
    show StableHlo.after hostOps2 (W6 m ρ c) (Proc.devRef .tc main_v16) = _
    after_results
    rfl
  rw [w6_arg m ρ c main_arg18 (by decide) (by decide) (by not_written hostOps0) (by not_written hostOps1) (by not_written hostOps1_1) (by not_written hostOps1_2)] at e
  exact e.trans (cast_row256 _)
theorem v7_bf2 (c : Dev nD) : V7 m ρ c main_v17 = Cert.Spec.row1 (m ((c : Thread nD τ).loc main_arg20)) := by
  have e : W7 m ρ c (Proc.devRef .tc main_v17) = shapeCast S1x128 (W6 m ρ c (Proc.devRef .tc main_arg20)) shapeCasts_S128_S1x128 := by
    show StableHlo.after hostOps2 (W6 m ρ c) (Proc.devRef .tc main_v17) = _
    after_results
    rfl
  rw [w6_arg m ρ c main_arg20 (by decide) (by decide) (by not_written hostOps0) (by not_written hostOps1) (by not_written hostOps1_1) (by not_written hostOps1_2)] at e
  exact e.trans (cast_row128 _)

/-- Row 1 of the edge list as a column of 640000 destination indices. -/
def dstIdx (a4 : IVec S2x640000 32) : IVec S640000x1 32 :=
  broadcastInDim S640000x1 ![0] bcast_S640000_S640000x1_0
    (shapeCast S640000 (extractStridedSlice S1x640000 ![1, 0] a4 slices_S2x640000_S1x640000_1_0) shapeCasts_S1x640000_S640000)

/-- The messages summed per destination node: a scatter-add into the zero array. -/
def aggr (a4 : IVec S2x640000 32) (msg : FVec Ideal S640000x128 .f32) : FVec Ideal S100000x128 .f32 :=
  Host.scatterAdd scatter_S100000x128_S640000x1_S640000x128_1_0_0_1
    (broadcastInDim S100000x128 ![] bcast_S_S100000x128 (constant (F := Ideal) S_ .f32 0x00000000#32)) (dstIdx a4) msg

theorem v7_aggr (c : Dev nD) : V7 m ρ c main_v14 = aggr (m ((c : Thread nD τ).loc main_arg4)) (msgK m c) := by
  have e : W7 m ρ c (Proc.devRef .tc main_v14)
      = aggr (W6 m ρ c (Proc.devRef .tc main_arg4)) (W6 m ρ c (Proc.devRef .tc main_v9_1)) := by
    show StableHlo.after hostOps2 (W6 m ρ c) (Proc.devRef .tc main_v14) = _
    after_results
    rfl
  rw [w6_arg m ρ c main_arg4 (by decide) (by decide) (by not_written hostOps0) (by not_written hostOps1) (by not_written hostOps1_1) (by not_written hostOps1_2), w6_msg] at e
  exact e

/-- The program's first result as the launch memory gives it. -/
def outK (c : Dev nD) : Cert.Spec.Arr 100000 128 :=
  Cert.Spec.outArr (hK m c) (vK m c) (aggr (m ((c : Thread nD τ).loc main_arg4)) (msgK m c)) (m ((c : Thread nD τ).loc main_arg0)) (m ((c : Thread nD τ).loc main_arg15)) (Cert.Spec.row1 (m ((c : Thread nD τ).loc main_arg16)))
    (m ((c : Thread nD τ).loc main_arg17)) (Cert.Spec.row1 (m ((c : Thread nD τ).loc main_arg18))) (m ((c : Thread nD τ).loc main_arg19)) (Cert.Spec.row1 (m ((c : Thread nD τ).loc main_arg20)))

/-- The first result buffer at the end of the run. -/
theorem w8_out (c : Dev nD) : W8 m ρ c (Proc.devRef .tc main_v18) = outK m c := by
  refine (W8_arr m ρ c 10).trans ((Cert.KernelIdeal.Region2.arr_out (V7 m ρ) c).trans ?_)
  rw [v7_h, v7_v, v7_aggr, v7_x, v7_Wh, v7_bh, v7_Wf1, v7_bf1, v7_Wf2, v7_bf2]
  rfl

/-- The second result buffer at the end of the run: region 1's first output, untouched since. -/
theorem w8_e (c : Dev nD) : W8 m ρ c (Proc.devRef .tc main_v9_0) = eK m c :=
  (W8_of_ne m ρ c main_v9_0 (by decide)).trans ((w7_keep m ρ c main_v9_0 (by not_written hostOps2)).trans (w6_e m ρ c))

end Cert.KernelIdeal.Chain

end
-- ==== Proof.RefStages.lean ====
import proofs.«427256_j19507741458639_1_alg».proof.Proof.Gen.ReferenceIdeal.Read
import proofs.«427256_j19507741458639_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefStages

open Cert.ReferenceIdeal Cert.ReferenceIdeal.Gen Cert.ReferenceIdeal.Read Idealize.ShloMosaic Idealize.ShloMosaic.TcCoe Idealize.SL.Sem
open Idealize.ShloMosaic.ValueIdx

/-!
  # The reference's stages are the specification's arrays

  Every linear layer of the reference is a contraction of a row of its left operand against a column of the weight, plus a
  bias that reaches the result through two broadcasts ([M] → [1, M] → [n, M]). Read at the entry `(r, q)` this is
  `∑ k, A (r, k) * W (k, q) + b q`, the specification's `affine A W (row1 b) r q`: the contraction's left index is
  `(r, k)`, its right index `(k, q)`, and the two broadcasts read the bias at `q`. The rectifier of the reference is the
  maximum with an array that holds the zero word everywhere, hence `relu0` entry by entry. With the eight linear layers
  read this way, each stage of the reference is its array of the specification by comparing entries; a stage that feeds a
  later linear layer is stated as a whole-array equation first, so that the later layer's sum is taken over the specification's array.
-/

section Layers

variable (x0 x1 : (⟨S100000x128, .f32⟩ : BufTy).Contents (Elt Ideal)) (x2 x3 : (⟨S640000x128, .f32⟩ : BufTy).Contents (Elt Ideal))
  (x4 : (⟨S2x640000, .i32⟩ : BufTy).Contents (Elt Ideal))
  (x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal))
  (x11 : (⟨S128x128, .f32⟩ : BufTy).Contents (Elt Ideal)) (x12 : (⟨S128, .f32⟩ : BufTy).Contents (Elt Ideal))
  (x13 : (⟨S128x128, .f32⟩ : BufTy).Contents (Elt Ideal)) (x14 : (⟨S128, .f32⟩ : BufTy).Contents (Elt Ideal))
  (x15 : (⟨S128x128, .f32⟩ : BufTy).Contents (Elt Ideal)) (x16 : (⟨S128, .f32⟩ : BufTy).Contents (Elt Ideal))
  (x17 : (⟨S128x256, .f32⟩ : BufTy).Contents (Elt Ideal)) (x18 : (⟨S256, .f32⟩ : BufTy).Contents (Elt Ideal))
  (x19 : (⟨S256x128, .f32⟩ : BufTy).Contents (Elt Ideal)) (x20 : (⟨S128, .f32⟩ : BufTy).Contents (Elt Ideal))

/-! ## The node projections' three linear layers -/

/-- `x · Wq + bq` at `(r, q)`: the contraction runs over `(r, k)` and `(k, q)`, the bias is read at `q`. -/
theorem lin_v3 (r : Fin 100000) (q : Fin 128) :
    val_main_v3 (F := Ideal) x0 x5 x6 (ix2 r q) = Cert.Spec.affine x0 x5 (Cert.Spec.row1 x6) r q := by
  have hl : ∀ k : Fin 128, lidx_main_v0 (ix2 r q) k = ix2 r k := fun k =>
    funext fun a => Fin.ext (by match a with | ⟨0, _⟩ => rfl | ⟨1, _⟩ => rfl)
  have hr : ∀ k : Fin 128, ridx_main_v0 (ix2 r q) k = ix2 k q := fun k =>
    funext fun a => Fin.ext (by match a with | ⟨0, _⟩ => rfl | ⟨1, _⟩ => rfl)
  have hb : idx_main_v1 (idx_main_v2 (ix2 r q)) = ix1 q :=
    funext fun a => Fin.ext (by match a with | ⟨0, _⟩ => rfl)
  rw [val_main_v3_apply, val_main_v0_apply, val_main_v2_apply, val_main_v1_apply, hb]
  simp only [hl, hr]
  rfl

/-- `p · Wk + bk` at `(r, q)`. -/
theorem lin_v7 (r : Fin 100000) (q : Fin 128) :
    val_main_v7 (F := Ideal) x1 x7 x8 (ix2 r q) = Cert.Spec.affine x1 x7 (Cert.Spec.row1 x8) r q := by
  have hl : ∀ k : Fin 128, lidx_main_v4 (ix2 r q) k = ix2 r k := fun k =>
    funext fun a => Fin.ext (by match a with | ⟨0, _⟩ => rfl | ⟨1, _⟩ => rfl)
  have hr : ∀ k : Fin 128, ridx_main_v4 (ix2 r q) k = ix2 k q := fun k =>
    funext fun a => Fin.ext (by match a with | ⟨0, _⟩ => rfl | ⟨1, _⟩ => rfl)
  have hb : idx_main_v5 (idx_main_v6 (ix2 r q)) = ix1 q :=
    funext fun a => Fin.ext (by match a with | ⟨0, _⟩ => rfl)
  rw [val_main_v7_apply, val_main_v4_apply, val_main_v6_apply, val_main_v5_apply, hb]
  simp only [hl, hr]
  rfl

/-- `p · Wv + bv` at `(r, q)`. -/
theorem lin_v11 (r : Fin 100000) (q : Fin 128) :
    val_main_v11 (F := Ideal) x1 x9 x10 (ix2 r q) = Cert.Spec.affine x1 x9 (Cert.Spec.row1 x10) r q := by
  have hl : ∀ k : Fin 128, lidx_main_v8 (ix2 r q) k = ix2 r k := fun k =>
    funext fun a => Fin.ext (by match a with | ⟨0, _⟩ => rfl | ⟨1, _⟩ => rfl)
  have hr : ∀ k : Fin 128, ridx_main_v8 (ix2 r q) k = ix2 k q := fun k =>
    funext fun a => Fin.ext (by match a with | ⟨0, _⟩ => rfl | ⟨1, _⟩ => rfl)
  have hb : idx_main_v9 (idx_main_v10 (ix2 r q)) = ix1 q :=
    funext fun a => Fin.ext (by match a with | ⟨0, _⟩ => rfl)
  rw [val_main_v11_apply, val_main_v8_apply, val_main_v10_apply, val_main_v9_apply, hb]
  simp only [hl, hr]
  rfl

/-! ## The edge messages' two linear layers -/

/-- `(a + π) · We1 + be1` at `(r, q)`: the left operand is the entrywise sum of the two edge inputs. -/
theorem lin_v27 (r : Fin 640000) (q : Fin 128) :
    val_main_v27 (F := Ideal) x2 x3 x11 x12 (ix2 r q)
      = Cert.Spec.affine (fun i => x2 i + x3 i) x11 (Cert.Spec.row1 x12) r q := by
  have hl : ∀ k : Fin 128, lidx_main_v24 (ix2 r q) k = ix2 r k := fun k =>
    funext fun a => Fin.ext (by match a with | ⟨0, _⟩ => rfl | ⟨1, _⟩ => rfl)
  have hr : ∀ k : Fin 128, ridx_main_v24 (ix2 r q) k = ix2 k q := fun k =>
    funext fun a => Fin.ext (by match a with | ⟨0, _⟩ => rfl | ⟨1, _⟩ => rfl)
  have hb : idx_main_v25 (idx_main_v26 (ix2 r q)) = ix1 q :=
    funext fun a => Fin.ext (by match a with | ⟨0, _⟩ => rfl)
  rw [val_main_v27_apply, val_main_v24_apply, val_main_v26_apply, val_main_v25_apply, hb]
  simp only [hl, hr, val_main_v23_apply]
  rfl

/-- `e₁ = relu0 ((a + π) · We1 + be1)`, as a whole array. -/
theorem e1_eq :
    val_main_v28 (F := Ideal) x2 x3 x11 x12 = Cert.Spec.e1Arr x2 x3 x11 (Cert.Spec.row1 x12) := by
  funext i
  obtain ⟨r, q, rfl⟩ : ∃ (r : Fin 640000) (q : Fin 128), i = ix2 r q := ⟨i 0, i 1, eq_ix2 i⟩
  rw [val_main_v28_apply, lin_v27, val_main_call1_v0_apply, val_main_call1_cst_apply]
  rfl

/-- `(e₁ + π) · We2 + be2` at `(r, q)`, the left operand being the specification's `e₁` plus the second edge input. -/
theorem lin_v33 (r : Fin 640000) (q : Fin 128) :
    val_main_v33 (F := Ideal) x2 x3 x11 x12 x13 x14 (ix2 r q)
      = Cert.Spec.affine (fun i => Cert.Spec.e1Arr x2 x3 x11 (Cert.Spec.row1 x12) i + x3 i) x13 (Cert.Spec.row1 x14) r q := by
  have hl : ∀ k : Fin 128, lidx_main_v30 (ix2 r q) k = ix2 r k := fun k =>
    funext fun a => Fin.ext (by match a with | ⟨0, _⟩ => rfl | ⟨1, _⟩ => rfl)
  have hr : ∀ k : Fin 128, ridx_main_v30 (ix2 r q) k = ix2 k q := fun k =>
    funext fun a => Fin.ext (by match a with | ⟨0, _⟩ => rfl | ⟨1, _⟩ => rfl)
  have hb : idx_main_v31 (idx_main_v32 (ix2 r q)) = ix1 q :=
    funext fun a => Fin.ext (by match a with | ⟨0, _⟩ => rfl)
  rw [val_main_v33_apply, val_main_v30_apply, val_main_v32_apply, val_main_v31_apply, hb]
  simp only [hl, hr, val_main_v29_apply, e1_eq]
  rfl

/-! ## The node update's three linear layers -/

/-- `(h + v + aggr) · Wh + bh` at `(r, q)`: the left operand is the entrywise sum of the three node arrays, which stay
    the reference's own stages here. -/
theorem lin_v47 (r : Fin 100000) (q : Fin 128) :
    val_main_v47 (F := Ideal) x0 x1 x2 x3 x4 x5 x6 x7 x8 x9 x10 x11 x12 x13 x14 x15 x16 (ix2 r q)
      = Cert.Spec.affine (fun i => val_main_v13 (F := Ideal) x0 x1 x5 x6 x7 x8 i + val_main_v11 (F := Ideal) x1 x9 x10 i
            + val_main_v41 (F := Ideal) x0 x1 x2 x3 x4 x5 x6 x7 x8 x11 x12 x13 x14 i) x15 (Cert.Spec.row1 x16) r q := by
  have hl : ∀ k : Fin 128, lidx_main_v44 (ix2 r q) k = ix2 r k := fun k =>
    funext fun a => Fin.ext (by match a with | ⟨0, _⟩ => rfl | ⟨1, _⟩ => rfl)
  have hr : ∀ k : Fin 128, ridx_main_v44 (ix2 r q) k = ix2 k q := fun k =>
    funext fun a => Fin.ext (by match a with | ⟨0, _⟩ => rfl | ⟨1, _⟩ => rfl)
  have hb : idx_main_v45 (idx_main_v46 (ix2 r q)) = ix1 q :=
    funext fun a => Fin.ext (by match a with | ⟨0, _⟩ => rfl)
  rw [val_main_v47_apply, val_main_v44_apply, val_main_v46_apply, val_main_v45_apply, hb]
  simp only [hl, hr, val_main_v43_apply, val_main_v42_apply]
  rfl

/-- `o = relu0 ((h + v + aggr) · Wh + bh) + x`, as a whole array. -/
theorem o_eq :
    val_main_v49 (F := Ideal) x0 x1 x2 x3 x4 x5 x6 x7 x8 x9 x10 x11 x12 x13 x14 x15 x16
      = Cert.Spec.hoArr (val_main_v13 (F := Ideal) x0 x1 x5 x6 x7 x8) (val_main_v11 (F := Ideal) x1 x9 x10)
          (val_main_v41 (F := Ideal) x0 x1 x2 x3 x4 x5 x6 x7 x8 x11 x12 x13 x14) x0 x15 (Cert.Spec.row1 x16) := by
  funext i
  obtain ⟨r, q, rfl⟩ : ∃ (r : Fin 100000) (q : Fin 128), i = ix2 r q := ⟨i 0, i 1, eq_ix2 i⟩
  rw [val_main_v49_apply, val_main_v48_apply, lin_v47, val_main_call4_v0_apply, val_main_call4_cst_apply]
  rfl

/-- `o · Wf1 + bf1` at `(r, q)`, 256 columns wide, the left operand being the specification's `o`. -/
theorem lin_v53 (r : Fin 100000) (q : Fin 256) :
    val_main_v53 (F := Ideal) x0 x1 x2 x3 x4 x5 x6 x7 x8 x9 x10 x11 x12 x13 x14 x15 x16 x17 x18 (ix2 r q)
      = Cert.Spec.affine (Cert.Spec.hoArr (val_main_v13 (F := Ideal) x0 x1 x5 x6 x7 x8) (val_main_v11 (F := Ideal) x1 x9 x10)
            (val_main_v41 (F := Ideal) x0 x1 x2 x3 x4 x5 x6 x7 x8 x11 x12 x13 x14) x0 x15 (Cert.Spec.row1 x16))
          x17 (Cert.Spec.row1 x18) r q := by
  have hl : ∀ k : Fin 128, lidx_main_v50 (ix2 r q) k = ix2 r k := fun k =>
    funext fun a => Fin.ext (by match a with | ⟨0, _⟩ => rfl | ⟨1, _⟩ => rfl)
  have hr : ∀ k : Fin 128, ridx_main_v50 (ix2 r q) k = ix2 k q := fun k =>
    funext fun a => Fin.ext (by match a with | ⟨0, _⟩ => rfl | ⟨1, _⟩ => rfl)
  have hb : idx_main_v51 (idx_main_v52 (ix2 r q)) = ix1 q :=
    funext fun a => Fin.ext (by match a with | ⟨0, _⟩ => rfl)
  rw [val_main_v53_apply, val_main_v50_apply, val_main_v52_apply, val_main_v51_apply, hb, o_eq]
  simp only [hl, hr]
  rfl

/-- `f = relu0 (o · Wf1 + bf1)`, as a whole array. -/
theorem f_eq :
    val_main_v54 (F := Ideal) x0 x1 x2 x3 x4 x5 x6 x7 x8 x9 x10 x11 x12 x13 x14 x15 x16 x17 x18
      = Cert.Spec.hfArr (val_main_v13 (F := Ideal) x0 x1 x5 x6 x7 x8) (val_main_v11 (F := Ideal) x1 x9 x10)
          (val_main_v41 (F := Ideal) x0 x1 x2 x3 x4 x5 x6 x7 x8 x11 x12 x13 x14) x0 x15 (Cert.Spec.row1 x16) x17 (Cert.Spec.row1 x18) := by
  funext i
  obtain ⟨r, q, rfl⟩ : ∃ (r : Fin 100000) (q : Fin 256), i = ix2 r q := ⟨i 0, i 1, eq_ix2 i⟩
  rw [val_main_v54_apply, lin_v53, val_main_call5_v0_apply, val_main_call5_cst_apply]
  rfl

/-- `f · Wf2 + bf2` at `(r, q)`: a contraction over the 256 hidden columns, the left operand being the specification's `f`. -/
theorem lin_v58 (r : Fin 100000) (q : Fin 128) :
    val_main_v58 (F := Ideal) x0 x1 x2 x3 x4 x5 x6 x7 x8 x9 x10 x11 x12 x13 x14 x15 x16 x17 x18 x19 x20 (ix2 r q)
      = Cert.Spec.affine (Cert.Spec.hfArr (val_main_v13 (F := Ideal) x0 x1 x5 x6 x7 x8) (val_main_v11 (F := Ideal) x1 x9 x10)
            (val_main_v41 (F := Ideal) x0 x1 x2 x3 x4 x5 x6 x7 x8 x11 x12 x13 x14) x0 x15 (Cert.Spec.row1 x16) x17 (Cert.Spec.row1 x18))
          x19 (Cert.Spec.row1 x20) r q := by
  have hl : ∀ k : Fin 256, lidx_main_v55 (ix2 r q) k = ix2 r k := fun k =>
    funext fun a => Fin.ext (by match a with | ⟨0, _⟩ => rfl | ⟨1, _⟩ => rfl)
  have hr : ∀ k : Fin 256, ridx_main_v55 (ix2 r q) k = ix2 k q := fun k =>
    funext fun a => Fin.ext (by match a with | ⟨0, _⟩ => rfl | ⟨1, _⟩ => rfl)
  have hb : idx_main_v56 (idx_main_v57 (ix2 r q)) = ix1 q :=
    funext fun a => Fin.ext (by match a with | ⟨0, _⟩ => rfl)
  rw [val_main_v58_apply, val_main_v55_apply, val_main_v57_apply, val_main_v56_apply, hb, f_eq]
  simp only [hl, hr]
  rfl

end Layers

/-! ## The five stages -/

/-- `h = relu0 ((x · Wq + bq) * (p · Wk + bk))`: the product of two linear layers, rectified, entry by entry. -/
theorem h_eq (x0 : (⟨S100000x128, .f32⟩ : BufTy).Contents (Elt Ideal)) (x1 : (⟨S100000x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v13 (F := Ideal) x0 x1 x5 x6 x7 x8 = Cert.Spec.hArr x0 x1 x5 (Cert.Spec.row1 x6) x7 (Cert.Spec.row1 x8) := by
  funext i
  obtain ⟨r, q, rfl⟩ : ∃ (r : Fin 100000) (q : Fin 128), i = ix2 r q := ⟨i 0, i 1, eq_ix2 i⟩
  rw [val_main_v13_apply, val_main_v12_apply, lin_v3, lin_v7, val_main_call0_v0_apply, val_main_call0_cst_apply]
  rfl

/-- `v = p · Wv + bv`: one linear layer, entry by entry. -/
theorem v_eq (x1 : (⟨S100000x128, .f32⟩ : BufTy).Contents (Elt Ideal)) (x9 : (⟨S128x128, .f32⟩ : BufTy).Contents (Elt Ideal)) (x10 : (⟨S128, .f32⟩ : BufTy).Contents (Elt Ideal)) :
    val_main_v11 (F := Ideal) x1 x9 x10 = Cert.Spec.vArr x1 x9 (Cert.Spec.row1 x10) := by
  funext i
  obtain ⟨r, q, rfl⟩ : ∃ (r : Fin 100000) (q : Fin 128), i = ix2 r q := ⟨i 0, i 1, eq_ix2 i⟩
  rw [lin_v11]
  rfl

/-- `e = relu0 ((e₁ + π) · We2 + be2)`: the second edge layer over the specification's `e₁`, rectified. -/
theorem e_eq (x2 : (⟨S640000x128, .f32⟩ : BufTy).Contents (Elt Ideal)) (x3 : (⟨S640000x128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) :
    val_main_v34 (F := Ideal) x2 x3 x11 x12 x13 x14 = Cert.Spec.eArr x2 x3 x11 (Cert.Spec.row1 x12) x13 (Cert.Spec.row1 x14) := by
  funext i
  obtain ⟨r, q, rfl⟩ : ∃ (r : Fin 640000) (q : Fin 128), i = ix2 r q := ⟨i 0, i 1, eq_ix2 i⟩
  rw [val_main_v34_apply, lin_v33, val_main_call2_v0_apply, val_main_call2_cst_apply]
  rfl

/-- `msg = relu0 (src + e)`: the gathered source rows stay the reference's own array; the other summand is the
    specification's `e` by `e_eq`, and the maximum with the zero word is `relu0`. -/
theorem msg_eq (x0 : (⟨S100000x128, .f32⟩ : BufTy).Contents (Elt Ideal)) (x1 : (⟨S100000x128, .f32⟩ : BufTy).Contents (Elt Ideal)) (x2 : (⟨S640000x128, .f32⟩ : BufTy).Contents (Elt Ideal)) (x3 : (⟨S640000x128, .f32⟩ : BufTy).Contents (Elt Ideal)) (x4 : (⟨S2x640000, .i32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) :
    val_main_v36 (F := Ideal) x0 x1 x2 x3 x4 x5 x6 x7 x8 x11 x12 x13 x14
      = Cert.Spec.msgArr (val_main_v22 (F := Ideal) x0 x1 x4 x5 x6 x7 x8) x2 x3 x11 (Cert.Spec.row1 x12) x13 (Cert.Spec.row1 x14) := by
  funext i
  rw [val_main_v36_apply, val_main_v35_apply, e_eq, val_main_call3_v0_apply, val_main_call3_cst_apply]
  rfl

/-- `out = f · Wf2 + bf2`: the last linear layer over the specification's `f`, entry by entry. -/
theorem out_eq (x0 : (⟨S100000x128, .f32⟩ : BufTy).Contents (Elt Ideal)) (x1 : (⟨S100000x128, .f32⟩ : BufTy).Contents (Elt Ideal)) (x2 : (⟨S640000x128, .f32⟩ : BufTy).Contents (Elt Ideal)) (x3 : (⟨S640000x128, .f32⟩ : BufTy).Contents (Elt Ideal)) (x4 : (⟨S2x640000, .i32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x256, .f32⟩ : BufTy).Contents (Elt Ideal)) (x18 : (⟨S256, .f32⟩ : BufTy).Contents (Elt Ideal)) (x19 : (⟨S256x128, .f32⟩ : BufTy).Contents (Elt Ideal)) (x20 : (⟨S128, .f32⟩ : BufTy).Contents (Elt Ideal)) :
    val_main_v58 (F := Ideal) x0 x1 x2 x3 x4 x5 x6 x7 x8 x9 x10 x11 x12 x13 x14 x15 x16 x17 x18 x19 x20
      = Cert.Spec.outArr (val_main_v13 (F := Ideal) x0 x1 x5 x6 x7 x8) (val_main_v11 (F := Ideal) x1 x9 x10) (val_main_v41 (F := Ideal) x0 x1 x2 x3 x4 x5 x6 x7 x8 x11 x12 x13 x14) x0
          x15 (Cert.Spec.row1 x16) x17 (Cert.Spec.row1 x18) x19 (Cert.Spec.row1 x20) := by
  funext i
  obtain ⟨r, q, rfl⟩ : ∃ (r : Fin 100000) (q : Fin 128), i = ix2 r q := ⟨i 0, i 1, eq_ix2 i⟩
  rw [lin_v58]
  rfl

end Cert.ReferenceIdeal.RefStages

end
-- ==== Proof.PreIdx.lean ====
/-
  What the precondition says of the edge list: its last two conjuncts are `all (edge_index[0] ≥ -100000)` and
  `all (edge_index[0] < 100000)`, each printed as a reduce by `and` of a word comparison; when the whole predicate is one,
  every source index `e k` of row 0 satisfies both comparisons.
-/
import proofs.«427256_j19507741458639_1_alg».proof.Pre_finite_inputs
import Idealize.ShloMosaic.Lib.ReduceAll
import Idealize.ShloMosaic.Lib.ValueIdx

set_option maxRecDepth 16384

noncomputable section

namespace Cert.PreIdx

open Cert.Pre_finite_inputs Idealize.ShloMosaic Idealize.ShloMosaic.ValueIdx

variable [Cert.Pre_finite_inputs.Facts]
open Cert.Pre_finite_inputs.Facts

instance : Subsingleton S_.Idx := ⟨fun a b => funext fun d => d.elim0⟩

/-- Row 0 of the edge list as a rank-1 array of 640000 source indices: the slice `[0:1, :]` reshaped. -/
def srcIdx (a4 : IVec S2x640000 32) : IVec S640000 32 :=
  shapeCast S640000 ((extractStridedSlice S1x640000 ![0, 0] · slices_S2x640000_S1x640000_0_0) a4) shapeCasts_S1x640000_S640000

/-- Under the precondition every source index lies in `[-100000, 100000)`, as signed words. -/
theorem srcIdx_range (a0 : FVec Ideal S100000x128 .f32) (a1 : FVec Ideal S100000x128 .f32) (a2 : FVec Ideal S640000x128 .f32) (a3 : FVec Ideal S640000x128 .f32) (a4 : IVec S2x640000 32) (a5 : FVec Ideal S128x128 .f32) (a6 : FVec Ideal S128 .f32) (a7 : FVec Ideal S128x128 .f32) (a8 : FVec Ideal S128 .f32) (a9 : FVec Ideal S128x128 .f32) (a10 : FVec Ideal S128 .f32) (a11 : FVec Ideal S128x128 .f32) (a12 : FVec Ideal S128 .f32) (a13 : FVec Ideal S128x128 .f32) (a14 : FVec Ideal S128 .f32) (a15 : FVec Ideal S128x128 .f32) (a16 : FVec Ideal S128 .f32) (a17 : FVec Ideal S128x256 .f32) (a18 : FVec Ideal S256 .f32) (a19 : FVec Ideal S256x128 .f32) (a20 : FVec Ideal S128 .f32)
    (h : Cert.Pre_finite_inputs.fn (F := Ideal) a0 a1 a2 a3 a4 a5 a6 a7 a8 a9 a10 a11 a12 a13 a14 a15 a16 a17 a18 a19 a20 = fun _ => 1#1) (k : S640000.Idx) :
    IntOp.cmpi .sge (srcIdx a4 k) 4294867296#32 = 1#1 ∧ IntOp.cmpi .slt (srcIdx a4 k) 100000#32 = 1#1 := by
  have h0 := congrFun h ix0
  dsimp only [fn, fn_part1, fn_part2, fn_part3, fn_part4, fn_part5, fn_part6] at h0
  obtain ⟨h1, h2⟩ := IntOp.andi_eq_one.1 h0
  obtain ⟨-, h1⟩ := IntOp.andi_eq_one.1 h1
  exact ⟨Host.reduce_andi_all _ _ _ _ ix0 h1 k, Host.reduce_andi_all _ _ _ _ ix0 h2 k⟩

end Cert.PreIdx

end
-- ==== Proof.lean ====
/-
  One message-passing layer of a graph network on 100000 nodes and 640000 edges, 128 features wide: the Pallas program
  (node projections, edge messages and node update as three pipelined kernels, the row gather and the per-node sum as host
  operations between them) against its jnp reference, over the extended reals.

  Both programs compute, index by index, the functions of `Proof/Spec.lean`:
    h = relu0 ((x · Wq + bq) * (p · Wk + bk)),  v = p · Wv + bv,
    e = relu0 ((relu0 ((a + π) · We1 + be1) + π) · We2 + be2),  msg = relu0 (h[src] + e),
    out = relu0 ((relu0 ((h + v + Σ_dst msg) · Wh + bh) + x) · Wf1 + bf1) · Wf2 + bf2,
  every product a plain sum over the contracted axis in the same order of operations on both sides, so no law of the
  extended reals beyond congruence is used and finiteness of the inputs is never opened. The kernel's regions are these
  functions of the arrays they find (`Proof/Region0..2.lean`), the reference's stages are the same functions of its
  arguments (`Proof/RefStages.lean`), and the buffers between the regions are followed through the host operations in
  `Proof/Chain.lean`.

  The one place where the programs differ is the row gather: the kernel program's `take` fills a row with the word
  `0x7FC00000` when its source index, after Python's wrap of negatives, leaves `[0, 99999]`, while the reference's
  `h[src]` reads the clamped row there. The statement therefore carries the evident domain of the edge list's first row,
  `-100000 ≤ src < 100000`: under it the wrapped index is in range, the fill mask is all ones (`Proof/Take.lean`,
  `Proof/PreIdx.lean`), and both sides are the same gather at the same wrapped index. The per-node sum is the same
  scatter-add of the same messages at the same destination indices on both sides, and is never opened.
-/
import proofs.«427256_j19507741458639_1_alg».proof.Defs
import proofs.«427256_j19507741458639_1_alg».proof.Proof.Gen.Kernel
import proofs.«427256_j19507741458639_1_alg».proof.Proof.Gen.Kernel.Frame
import proofs.«427256_j19507741458639_1_alg».proof.Proof.Gen.KernelIdeal
import proofs.«427256_j19507741458639_1_alg».proof.Proof.Gen.KernelIdeal.Frame
import proofs.«427256_j19507741458639_1_alg».proof.Proof.Gen.ReferenceIdeal
import proofs.«427256_j19507741458639_1_alg».proof.Proof.Gen.ReferenceIdeal.Run
import proofs.«427256_j19507741458639_1_alg».proof.Proof.Gen.ReferenceIdeal.Read
import proofs.«427256_j19507741458639_1_alg».proof.Proof.Gen.Pre_finite_inputs
import proofs.«427256_j19507741458639_1_alg».proof.Proof.RunValues
import proofs.«427256_j19507741458639_1_alg».proof.Proof.Chain
import proofs.«427256_j19507741458639_1_alg».proof.Proof.RefStages
import proofs.«427256_j19507741458639_1_alg».proof.Proof.PreIdx
import proofs.«427256_j19507741458639_1_alg».proof.Proof.Take
import Idealize.ShloMosaic.Adequacy
import Idealize.ShloMosaic.Init

set_option maxRecDepth 16384

noncomputable section

namespace Cert.Proof

open Idealize.ShloMosaic Idealize.ShloMosaic.TcCoe Idealize.SL.Sem

/-! ## The three frames -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-! ## The bridge between the two programs' host operations -/

section Bridge

open Cert.KernelIdeal.Take Cert.KernelIdeal.Chain Cert.ReferenceIdeal.Read

/-- The source indices of the precondition are the kernel program's. -/
theorem srcIdx_eq (a4 : IVec Cert.KernelIdeal.S2x640000 32) : Cert.PreIdx.srcIdx a4 = idxE a4 := rfl

/-- The two programs name one gather and one scatter: the same dimension numbers. -/
theorem gatherDims_eq : Cert.KernelIdeal.gather_S100000x128_S640000x1_S640000x128_1_0_n_n_0_1_1128
    = Cert.ReferenceIdeal.gather_S100000x128_S640000x1_S640000x128_1_0_n_n_0_1_1128 := rfl
theorem scatterDims_eq : Cert.KernelIdeal.scatter_S100000x128_S640000x1_S640000x128_1_0_0_1
    = Cert.ReferenceIdeal.scatter_S100000x128_S640000x1_S640000x128_1_0_0_1 := rfl

/-- The kernel program's wrapped index column is the reference's. -/
theorem idxW_eq (a4 : IVec Cert.KernelIdeal.S2x640000 32) : idxW a4 = val_main_v21 (F := Ideal) a4 := rfl

/-- The kernel program's destination index column is the reference's. -/
theorem dstIdx_eq (a4 : IVec Cert.KernelIdeal.S2x640000 32) : dstIdx a4 = val_main_v40 (F := Ideal) a4 := rfl

/-- Both sums start from the same zero array. -/
theorem zeros_eq : broadcastInDim Cert.KernelIdeal.S100000x128 ![] Cert.KernelIdeal.Facts₀.bcast_S_S100000x128
    (constant (F := Ideal) Cert.KernelIdeal.S_ .f32 0x00000000#32) = val_main_v39 (F := Ideal) := rfl

/-- Under the index range the kernel program's gathered rows are the reference's gather, for the same `h`. -/
theorem take_eq_ref (h : FVec Ideal Cert.KernelIdeal.S100000x128 .f32) (a4 : IVec Cert.KernelIdeal.S2x640000 32)
    (hr : ∀ k : Cert.KernelIdeal.S640000.Idx, IntOp.cmpi .sge (idxE a4 k) 4294867296#32 = 1#1 ∧ IntOp.cmpi .slt (idxE a4 k) 100000#32 = 1#1) :
    take h a4 = Host.gather Cert.ReferenceIdeal.gather_S100000x128_S640000x1_S640000x128_1_0_n_n_0_1_1128 h (val_main_v21 (F := Ideal) a4) := by
  rw [take_eq_gather h a4 hr, gatherDims_eq, idxW_eq]

/-- The kernel program's per-node sum is the reference's scatter-add, for the same messages. -/
theorem aggr_eq_ref (a4 : IVec Cert.KernelIdeal.S2x640000 32) (msg : FVec Ideal Cert.KernelIdeal.S640000x128 .f32) :
    aggr a4 msg = Host.scatterAdd Cert.ReferenceIdeal.scatter_S100000x128_S640000x1_S640000x128_1_0_0_1
      (val_main_v39 (F := Ideal)) (val_main_v40 (F := Ideal) a4) msg := by
  unfold aggr
  rw [scatterDims_eq, zeros_eq, dstIdx_eq]

end Bridge

/-! ## The value claim -/

set_option maxHeartbeats 4000000 in
/-- Both programs end with the first result at `outK` and the second at `eK` of the launch memory: the kernel program by
    its run followed through the regions, the reference by its run read stage by stage, the gather joined under the index range. -/
theorem algebraic : Cert.algebraic_KernelIdeal_ReferenceIdeal := by
  intro m ρ m' ρ' hpre hagree
  refine ⟨fun c => Cert.KernelIdeal.Chain.outK m c, fun c => Cert.KernelIdeal.Chain.eK m c, ?_, ?_⟩
  · exact (θ_run Cert.KernelIdeal.defs _ _).mono
      (fun r h c => ⟨(h c).1.trans (Cert.KernelIdeal.Chain.w8_out m ρ c), (h c).2.1.trans (Cert.KernelIdeal.Chain.w8_e m ρ c), (h c).2.2⟩)
      (Cert.KernelIdeal.RunValues.run_values m ρ)
  · refine (θ_run Cert.ReferenceIdeal.defs _ _).mono (fun r h c => ⟨(h c).1.trans ?_, (h c).2.1.trans ?_, (h c).2.2⟩)
      (Cert.ReferenceIdeal.Value.run (F := Ideal) m' ρ')
    · have hr : ∀ k : Cert.KernelIdeal.S640000.Idx,
          IntOp.cmpi .sge (Cert.KernelIdeal.Take.idxE (m ((c.tc : Thread Cert.KernelIdeal.nD Cert.KernelIdeal.τ).loc Cert.KernelIdeal.main_arg4)) k) 4294867296#32 = 1#1
          ∧ IntOp.cmpi .slt (Cert.KernelIdeal.Take.idxE (m ((c.tc : Thread Cert.KernelIdeal.nD Cert.KernelIdeal.τ).loc Cert.KernelIdeal.main_arg4)) k) 100000#32 = 1#1 := fun k => by
        have h0 := Cert.PreIdx.srcIdx_range _ _ _ _ (m ((c.tc : Thread Cert.KernelIdeal.nD Cert.KernelIdeal.τ).loc Cert.KernelIdeal.main_arg4)) _ _ _ _ _ _ _ _ _ _ _ _ _ _ _ _ (hpre c) k
        rw [srcIdx_eq] at h0
        exact h0
      obtain ⟨g0, g1, g2, g3, g4, g5, g6, g7, g8, g9, g10, g11, g12, g13, g14, g15, g16, g17, g18, g19, g20⟩ := hagree c
      show Cert.ReferenceIdeal.Value.res_main_v58 m' c = Cert.KernelIdeal.Chain.outK m c
      rw [Cert.ReferenceIdeal.Read.val_main_v58_eq, Cert.ReferenceIdeal.RefStages.out_eq, Cert.ReferenceIdeal.RefStages.h_eq,
        Cert.ReferenceIdeal.RefStages.v_eq]
      unfold Cert.ReferenceIdeal.Read.val_main_v41
      rw [Cert.ReferenceIdeal.RefStages.msg_eq]
      unfold Cert.ReferenceIdeal.Read.val_main_v22
      rw [Cert.ReferenceIdeal.RefStages.h_eq, g0, g1, g2, g3, g4, g5, g6, g7, g8, g9, g10, g11, g12, g13, g14, g15, g16, g17, g18, g19, g20]
      unfold Cert.KernelIdeal.Chain.outK Cert.KernelIdeal.Chain.msgK Cert.KernelIdeal.Chain.hK Cert.KernelIdeal.Chain.vK
      rw [aggr_eq_ref, take_eq_ref _ (m ((c.tc : Thread Cert.KernelIdeal.nD Cert.KernelIdeal.τ).loc Cert.KernelIdeal.main_arg4)) hr]
    · obtain ⟨g0, g1, g2, g3, g4, g5, g6, g7, g8, g9, g10, g11, g12, g13, g14, g15, g16, g17, g18, g19, g20⟩ := hagree c
      show _ = Cert.KernelIdeal.Chain.eK m c
      rw [Cert.ReferenceIdeal.Read.val_main_v34_eq, Cert.ReferenceIdeal.RefStages.e_eq, g2, g3, g11, g12, g13, g14]
      rfl

/-! ## The certificate -/

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
